-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S16x4096x688 : Shape := ⟨3, ![16, 4096, 688]⟩
abbrev S16x688x4096 : Shape := ⟨3, ![16, 688, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S16x4096x688 : S_.BroadcastsInDim S16x4096x688 (![] : Fin 0 → Fin S16x4096x688.rank)
  reducesTo_S16x4096x688_S_d0_1_2 : S16x4096x688.ReducesTo [0, 1, 2] S_
  bcast_S_S16x688x4096 : S_.BroadcastsInDim S16x688x4096 (![] : Fin 0 → Fin S16x688x4096.rank)
  reducesTo_S16x688x4096_S_d0_1_2 : S16x688x4096.ReducesTo [0, 1, 2] S_

variable [Facts]

def fn_part1 {F : FTy → Type} [FloatOps F] (main_arg5 : FVec F S16x688x4096 .f32) (main_v13 : IVec S_ 1) (main_v16 : IVec S16x4096x688 1) : IVec S_ 1 :=
  let main_c_5 : IVec S_ 1 := constantI S_ 1 1#1
  let main_v17 : IVec S_ 1 := (fun x v => Host.reduce IntOp.andi x v reducesTo_S16x4096x688_S_d0_1_2 h_S_) main_v16 main_c_5
  let main_v18 : IVec S_ 1 := andi main_v13 main_v17
  let main_v19 : FVec F S16x688x4096 .f32 := Host.absf main_arg5
  let main_cst_6 : FVec F S_ .f32 := constant S_ .f32 0x7F800000#32
  let main_v20 : FVec F S16x688x4096 .f32 := broadcastInDim S16x688x4096 ![] bcast_S_S16x688x4096 main_cst_6
  let main_v21 : IVec S16x688x4096 1 := cmpf .olt main_v19 main_v20
  let main_c_7 : IVec S_ 1 := constantI S_ 1 1#1
  let main_v22 : IVec S_ 1 := (fun x v => Host.reduce IntOp.andi x v reducesTo_S16x688x4096_S_d0_1_2 h_S_) main_v21 main_c_7
  let main_v23 : IVec S_ 1 := andi main_v18 main_v22
  main_v23

def fn {F : FTy → Type} [FloatOps F] (main_arg0 : FVec F S8192x4096 .f32) (main_arg1 : IVec S8192 32) (main_arg2 : FVec F S8192 .f32) (main_arg3 : FVec F S16x4096x688 .f32) (main_arg4 : FVec F S16x4096x688 .f32) (main_arg5 : FVec F S16x688x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S16x4096x688 .f32 := Host.absf main_arg3
  let main_cst_2 : FVec F S_ .f32 := constant S_ .f32 0x7F800000#32
  let main_v10 : FVec F S16x4096x688 .f32 := broadcastInDim S16x4096x688 ![] bcast_S_S16x4096x688 main_cst_2
  let main_v11 : IVec S16x4096x688 1 := cmpf .olt main_v9 main_v10
  let main_c_3 : IVec S_ 1 := constantI S_ 1 1#1
  let main_v12 : IVec S_ 1 := (fun x v => Host.reduce IntOp.andi x v reducesTo_S16x4096x688_S_d0_1_2 h_S_) main_v11 main_c_3
  let main_v13 : IVec S_ 1 := andi main_v8 main_v12
  let main_v14 : FVec F S16x4096x688 .f32 := Host.absf main_arg4
  let main_cst_4 : FVec F S_ .f32 := constant S_ .f32 0x7F800000#32
  let main_v15 : FVec F S16x4096x688 .f32 := broadcastInDim S16x4096x688 ![] bcast_S_S16x4096x688 main_cst_4
  let main_v16 : IVec S16x4096x688 1 := cmpf .olt main_v14 main_v15
  fn_part1 (F := F) main_arg5 main_v13 main_v16
-- ==== Kernel.lean ====
abbrev S8192x4096 : Shape := ⟨2, ![8192, 4096]⟩
abbrev S8192 : Shape := ⟨1, ![8192]⟩
abbrev S16x4096x688 : Shape := ⟨3, ![16, 4096, 688]⟩
abbrev S16x688x4096 : Shape := ⟨3, ![16, 688, 4096]⟩
abbrev S8192x1 : Shape := ⟨2, ![8192, 1]⟩
abbrev S1x16 : Shape := ⟨2, ![1, 16]⟩
abbrev S8192x16 : Shape := ⟨2, ![8192, 16]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S17x640x4096 : Shape := ⟨3, ![17, 640, 4096]⟩
abbrev S8192x2 : Shape := ⟨2, ![8192, 2]⟩
abbrev S16x640x4096 : Shape := ⟨3, ![16, 640, 4096]⟩
abbrev S1x128x4096 : Shape := ⟨3, ![1, 128, 4096]⟩
abbrev S1x4096x688 : Shape := ⟨3, ![1, 4096, 688]⟩
abbrev S1x688x4096 : Shape := ⟨3, ![1, 688, 4096]⟩
abbrev S128x4096 : Shape := ⟨2, ![128, 4096]⟩
abbrev S4096x688 : Shape := ⟨2, ![4096, 688]⟩
abbrev S688x4096 : Shape := ⟨2, ![688, 4096]⟩
abbrev S128x688 : Shape := ⟨2, ![128, 688]⟩

abbrev nBuf : Space → Nat
  | .hbm => 104
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8192, .f32⟩
  | .hbm, ⟨3, _⟩ => ⟨S16x4096x688, .f32⟩
  | .hbm, ⟨4, _⟩ => ⟨S16x4096x688, .f32⟩
  | .hbm, ⟨5, _⟩ => ⟨S16x688x4096, .f32⟩
  | .hbm, ⟨6, _⟩ => ⟨S8192x1, .i32⟩
  | .hbm, ⟨7, _⟩ => ⟨S1x16, .i32⟩
  | .hbm, ⟨8, _⟩ => ⟨S8192x16, .i32⟩
  | .hbm, ⟨9, _⟩ => ⟨S8192x16, .i32⟩
  | .hbm, ⟨10, _⟩ => ⟨S8192x16, .i1⟩
  | .hbm, ⟨11, _⟩ => ⟨S8192x16, .i32⟩
  | .hbm, ⟨12, _⟩ => ⟨S_, .i32⟩
  | .hbm, ⟨13, _⟩ => ⟨S_, .i32⟩
  | .hbm, ⟨14, _⟩ => ⟨S8192x16, .i32⟩
  | .hbm, ⟨15, _⟩ => ⟨S_, .i32⟩
  | .hbm, ⟨16, _⟩ => ⟨S8192x16, .i32⟩
  | .hbm, ⟨17, _⟩ => ⟨S8192x16, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192x4096, .bf16⟩
  | .hbm, ⟨53, _⟩ => ⟨S_, .bf16⟩
  | .hbm, ⟨54, _⟩ => ⟨S17x640x4096, .bf16⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x1, .i32⟩
  | .hbm, ⟨71, _⟩ => ⟨S8192x2, .i32⟩
  | .hbm, ⟨72, _⟩ => ⟨S17x640x4096, .bf16⟩
  | .hbm, ⟨73, _⟩ => ⟨S16x640x4096, .bf16⟩
  | .hbm, ⟨74, _⟩ => ⟨S16x4096x688, .bf16⟩
  | .hbm, ⟨75, _⟩ => ⟨S16x4096x688, .bf16⟩
  | .hbm, ⟨76, _⟩ => ⟨S16x688x4096, .bf16⟩
  | .hbm, ⟨77, _⟩ => ⟨S16x640x4096, .bf16⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .i32⟩
  | .hbm, ⟨85, _⟩ => ⟨S_, .i32⟩
  | .hbm, ⟨86, _⟩ => ⟨S8192, .i32⟩
  | .hbm, ⟨87, _⟩ => ⟨S8192, .i1⟩
  | .hbm, ⟨88, _⟩ => ⟨S_, .i32⟩
  | .hbm, ⟨89, _⟩ => ⟨S8192, .i32⟩
  | .hbm, ⟨90, _⟩ => ⟨S8192, .i32⟩
  | .hbm, ⟨91, _⟩ => ⟨S8192, .i32⟩
  | .hbm, ⟨92, _⟩ => ⟨S8192x1, .i32⟩
  | .hbm, ⟨93, _⟩ => ⟨S8192x1, .i32⟩
  | .hbm, ⟨94, _⟩ => ⟨S8192x2, .i32⟩
  | .hbm, ⟨95, _⟩ => ⟨S8192x4096, .bf16⟩
  | .hbm, ⟨96, _⟩ => ⟨S8192x4096, .f32⟩
  | .hbm, ⟨97, _⟩ => ⟨S8192x1, .i1⟩
  | .hbm, ⟨98, _⟩ => ⟨S8192x1, .f32⟩
  | .hbm, ⟨99, _⟩ => ⟨S8192x4096, .f32⟩
  | .hbm, ⟨100, _⟩ => ⟨S8192x4096, .f32⟩
  | .hbm, ⟨101, _⟩ => ⟨S8192x1, .f32⟩
  | .hbm, ⟨102, _⟩ => ⟨S8192x4096, .f32⟩
  | .hbm, ⟨103, _⟩ => ⟨S8192x4096, .f32⟩
  | .local _ .vmem, ⟨0, _⟩ => ⟨S1x128x4096, .bf16⟩
  | .local _ .vmem, ⟨1, _⟩ => ⟨S1x128x4096, .bf16⟩
  | .local _ .vmem, ⟨2, _⟩ => ⟨S1x4096x688, .bf16⟩
  | .local _ .vmem, ⟨3, _⟩ => ⟨S1x4096x688, .bf16⟩
  | .local _ .vmem, ⟨4, _⟩ => ⟨S1x4096x688, .bf16⟩
  | .local _ .vmem, ⟨5, _⟩ => ⟨S1x4096x688, .bf16⟩
  | .local _ .vmem, ⟨6, _⟩ => ⟨S1x688x4096, .bf16⟩
  | .local _ .vmem, ⟨7, _⟩ => ⟨S1x688x4096, .bf16⟩
  | .local _ .vmem, ⟨8, _⟩ => ⟨S1x128x4096, .bf16⟩
  | .local _ .vmem, ⟨9, _⟩ => ⟨S1x128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v5 : Ref sig .tc := ⟨.hbm, 40, rfl⟩
abbrev main_v6 : Ref sig .tc := ⟨.hbm, 41, rfl⟩
abbrev main_c_0 : Ref sig .tc := ⟨.hbm, 42, rfl⟩
abbrev main_v7 : Ref sig .tc := ⟨.hbm, 43, rfl⟩
abbrev main_v8 : Ref sig .tc := ⟨.hbm, 44, rfl⟩
abbrev main_c_1 : Ref sig .tc := ⟨.hbm, 45, rfl⟩
abbrev main_call3_v0 : Ref sig .tc := ⟨.hbm, 46, rfl⟩
abbrev main_call3_v1 : Ref sig .tc := ⟨.hbm, 47, rfl⟩
abbrev main_v9 : Ref sig .tc := ⟨.hbm, 48, rfl⟩
abbrev main_c_2 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_c_3 : Ref sig .tc := ⟨.hbm, 55, rfl⟩
abbrev main_v14 : Ref sig .tc := ⟨.hbm, 56, rfl⟩
abbrev main_v15 : Ref sig .tc := ⟨.hbm, 57, rfl⟩
abbrev main_c_4 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_5 : Ref sig .tc := ⟨.hbm, 62, rfl⟩
abbrev main_v19 : Ref sig .tc := ⟨.hbm, 63, rfl⟩
abbrev main_v20 : Ref sig .tc := ⟨.hbm, 64, rfl⟩
abbrev main_c_6 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_c_7 : Ref sig .tc := ⟨.hbm, 78, rfl⟩
abbrev main_v33 : Ref sig .tc := ⟨.hbm, 79, rfl⟩
abbrev main_v34 : Ref sig .tc := ⟨.hbm, 80, rfl⟩
abbrev main_c_8 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_c_9 : Ref sig .tc := ⟨.hbm, 85, rfl⟩
abbrev main_v38 : Ref sig .tc := ⟨.hbm, 86, rfl⟩
abbrev main_v39 : Ref sig .tc := ⟨.hbm, 87, rfl⟩
abbrev main_c_10 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x688x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S1x16_S8192x16_0_1 : S1x16.BroadcastsInDim S8192x16 (![0, 1] : Fin 2 → Fin S8192x16.rank)
  natLt_1_32 : 1 < 32
  bcast_S_S_ : S_.BroadcastsInDim S_ (![] : Fin 0 → Fin S_.rank)
  reduceWindows_S8192x16_S8192x16_w8192s1p8191_0_w1s1p0_0 : S8192x16.ReduceWindows (![8192, 1] : Fin 2 → Nat) ![1, 1] ![8191, 0] ![0, 0] S8192x16
  h_S_ : 0 < S_.numel
  bcast_S_S8192x16 : S_.BroadcastsInDim S8192x16 (![] : Fin 0 → Fin S8192x16.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bitsLt_bf16_f32 : FTy.bits .bf16 < FTy.bits .f32
  bcast_S_S17x640x4096 : S_.BroadcastsInDim S17x640x4096 (![] : Fin 0 → Fin S17x640x4096.rank)
  concatenates_S8192x1_S8192x1_S8192x2_d1 : Shape.Concatenates [S8192x1, S8192x1] S8192x2 1
  slices_S17x640x4096_S16x640x4096_0_0_0 : S17x640x4096.Slices ![0, 0, 0] S16x640x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S1x4096x688_S1x4096x688_0_0_0 : ∀ a, (![0, 0, 0] : Fin 3 → Nat) a + S1x4096x688.size a ≤ S1x4096x688.size a
  h_S1x4096x688 : 0 < S1x4096x688.numel
  shapeCasts_S1x4096x688_S4096x688 : S1x4096x688.ShapeCasts S4096x688
  inb_S1x688x4096_S1x688x4096_0_0_0 : ∀ a, (![0, 0, 0] : Fin 3 → Nat) a + S1x688x4096.size a ≤ S1x688x4096.size a
  h_S1x688x4096 : 0 < S1x688x4096.numel
  shapeCasts_S1x688x4096_S688x4096 : S1x688x4096.ShapeCasts S688x4096
  shapeCasts_S128x4096_S1x128x4096 : S128x4096.ShapeCasts S1x128x4096
  packedbf16_S1x128x4096_S1x128x4096_0_0_0 : (Rect.unit (s := S1x128x4096) ![0, 0, 0] S1x128x4096.size inb_S1x128x4096_S1x128x4096_0_0_0).PackedRows (EltTy.packing .bf16)
  bcast_S8192x1_S8192x4096_0_1 : S8192x1.BroadcastsInDim S8192x4096 (![0, 1] : Fin 2 → Fin S8192x4096.rank)
  gather_S8192x16_S8192x1x1_S8192x1_n_1_0_0_1_2_11_wf : GatherDims.WF S8192x16 S8192x1x1 S8192x1 [] [1] [0] [1] [0] 2 ![1, 1]
  scatter_S17x640x4096_S8192x2_S8192x4096_1_01_01_1_wf : ScatterDims.WF S17x640x4096 S8192x2 S8192x4096 [1] [0, 1] [0, 1] 1
  dot_S128x4096_S4096x688_S128x688_1_0_0_1_n_n_wf : DotDims.WF S128x4096 S4096x688 S128x688 [1] [0] [0] [1] [] []
  dot_S128x688_S688x4096_S128x4096_1_0_0_1_n_n_wf : DotDims.WF S128x688 S688x4096 S128x4096 [1] [0] [0] [1] [] []
  gather_S16x640x4096_S8192x2_S8192x4096_1_01_n_n_01_1_114096_wf : GatherDims.WF S16x640x4096 S8192x2 S8192x4096 [1] [0, 1] [] [0, 1] [] 1 ![1, 1, 4096]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S16x640x4096.size a
  hwx0_0 : ∀ i : grid0.Coords, EltTy.bits .bf16 = 32 ∨ (Rect.block (s := S16x640x4096) S1x128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x688.size a ≤ S16x4096x688.size a
  hwx0_1 : ∀ i : grid0.Coords, EltTy.bits .bf16 = 32 ∨ (Rect.block (s := S16x4096x688) S1x4096x688.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x688.size a ≤ S16x4096x688.size a
  hwx0_2 : ∀ i : grid0.Coords, EltTy.bits .bf16 = 32 ∨ (Rect.block (s := S16x4096x688) S1x4096x688.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x688x4096.size a ≤ S16x688x4096.size a
  hwx0_3 : ∀ i : grid0.Coords, EltTy.bits .bf16 = 32 ∨ (Rect.block (s := S16x688x4096) S1x688x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S16x640x4096.size a
  hwx0_4 : ∀ i : grid0.Coords, EltTy.bits .bf16 = 32 ∨ (Rect.block (s := S16x640x4096) S1x128x4096.size (cc0_transform_4 i) (hinb0_4 i)).WholeWords (EltTy.packing .bf16)

variable [Facts₀]

def gather_S8192x16_S8192x1x1_S8192x1_n_1_0_0_1_2_11 : GatherDims S8192x16 S8192x1x1 S8192x1 where
  offsetDims := []
  collapsedSliceDims := [1]
  operandBatchingDims := [0]
  startIndicesBatchingDims := [0]
  startIndexMap := [1]
  indexVectorDim := 2
  sliceSizes := ![1, 1]
  wf := gather_S8192x16_S8192x1x1_S8192x1_n_1_0_0_1_2_11_wf
def scatter_S17x640x4096_S8192x2_S8192x4096_1_01_01_1 : ScatterDims S17x640x4096 S8192x2 S8192x4096 where
  updateWindowDims := [1]
  insertedWindowDims := [0, 1]
  scatterDimsToOperandDims := [0, 1]
  indexVectorDim := 1
  wf := scatter_S17x640x4096_S8192x2_S8192x4096_1_01_01_1_wf
def dot_S128x4096_S4096x688_S128x688_1_0_0_1_n_n : DotDims S128x4096 S4096x688 S128x688 where
  lhsContracting := [1]
  rhsContracting := [0]
  lhsNonContracting := [0]
  rhsNonContracting := [1]
  lhsBatch := []
  rhsBatch := []
  wf := dot_S128x4096_S4096x688_S128x688_1_0_0_1_n_n_wf
def dot_S128x688_S688x4096_S128x4096_1_0_0_1_n_n : DotDims S128x688 S688x4096 S128x4096 where
  lhsContracting := [1]
  rhsContracting := [0]
  lhsNonContracting := [0]
  rhsNonContracting := [1]
  lhsBatch := []
  rhsBatch := []
  wf := dot_S128x688_S688x4096_S128x4096_1_0_0_1_n_n_wf
def gather_S16x640x4096_S8192x2_S8192x4096_1_01_n_n_01_1_114096 : GatherDims S16x640x4096 S8192x2 S8192x4096 where
  offsetDims := [1]
  collapsedSliceDims := [0, 1]
  operandBatchingDims := []
  startIndicesBatchingDims := []
  startIndexMap := [0, 1]
  indexVectorDim := 1
  sliceSizes := ![1, 1, 4096]
  wf := gather_S16x640x4096_S8192x2_S8192x4096_1_01_n_n_01_1_114096_wf

abbrev win0_0 : Pipeline.Window sig grid0 :=
  Pipeline.Window.ofSpec (Memref.whole main_v28) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x4096x688.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x4096x688.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x688x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192 : Shape := ⟨1, ![8192]⟩
abbrev S16x4096x688 : Shape := ⟨3, ![16, 4096, 688]⟩
abbrev S16x688x4096 : Shape := ⟨3, ![16, 688, 4096]⟩
abbrev S8192x1 : Shape := ⟨2, ![8192, 1]⟩
abbrev S1x16 : Shape := ⟨2, ![1, 16]⟩
abbrev S8192x16 : Shape := ⟨2, ![8192, 16]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S17x640x4096 : Shape := ⟨3, ![17, 640, 4096]⟩
abbrev S8192x2 : Shape := ⟨2, ![8192, 2]⟩
abbrev S16x640x4096 : Shape := ⟨3, ![16, 640, 4096]⟩
abbrev S16x640x688 : Shape := ⟨3, ![16, 640, 688]⟩

abbrev nBuf : Space → Nat
  | .hbm => 111
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8192, .f32⟩
  | .hbm, ⟨3, _⟩ => ⟨S16x4096x688, .f32⟩
  | .hbm, ⟨4, _⟩ => ⟨S16x4096x688, .f32⟩
  | .hbm, ⟨5, _⟩ => ⟨S16x688x4096, .f32⟩
  | .hbm, ⟨6, _⟩ => ⟨S8192x1, .i32⟩
  | .hbm, ⟨7, _⟩ => ⟨S1x16, .i32⟩
  | .hbm, ⟨8, _⟩ => ⟨S8192x16, .i32⟩
  | .hbm, ⟨9, _⟩ => ⟨S8192x16, .i32⟩
  | .hbm, ⟨10, _⟩ => ⟨S8192x16, .i1⟩
  | .hbm, ⟨11, _⟩ => ⟨S8192x16, .i32⟩
  | .hbm, ⟨12, _⟩ => ⟨S_, .i32⟩
  | .hbm, ⟨13, _⟩ => ⟨S_, .i32⟩
  | .hbm, ⟨14, _⟩ => ⟨S8192x16, .i32⟩
  | .hbm, ⟨15, _⟩ => ⟨S_, .i32⟩
  | .hbm, ⟨16, _⟩ => ⟨S8192x16, .i32⟩
  | .hbm, ⟨17, _⟩ => ⟨S8192x16, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S_, .f32⟩
  | .hbm, ⟨53, _⟩ => ⟨S17x640x4096, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x1, .i32⟩
  | .hbm, ⟨70, _⟩ => ⟨S8192x2, .i32⟩
  | .hbm, ⟨71, _⟩ => ⟨S17x640x4096, .f32⟩
  | .hbm, ⟨72, _⟩ => ⟨S16x640x4096, .f32⟩
  | .hbm, ⟨73, _⟩ => ⟨S16x640x688, .f32⟩
  | .hbm, ⟨74, _⟩ => ⟨S16x640x688, .f32⟩
  | .hbm, ⟨75, _⟩ => ⟨S16x640x688, .f32⟩
  | .hbm, ⟨76, _⟩ => ⟨S_, .f32⟩
  | .hbm, ⟨77, _⟩ => ⟨S16x640x688, .f32⟩
  | .hbm, ⟨78, _⟩ => ⟨S16x640x688, .f32⟩
  | .hbm, ⟨79, _⟩ => ⟨S_, .f32⟩
  | .hbm, ⟨80, _⟩ => ⟨S16x640x688, .f32⟩
  | .hbm, ⟨81, _⟩ => ⟨S16x640x688, .f32⟩
  | .hbm, ⟨82, _⟩ => ⟨S16x640x688, .f32⟩
  | .hbm, ⟨83, _⟩ => ⟨S16x640x688, .f32⟩
  | .hbm, ⟨84, _⟩ => ⟨S16x640x688, .f32⟩
  | .hbm, ⟨85, _⟩ => ⟨S16x640x4096, .f32⟩
  | .hbm, ⟨86, _⟩ => ⟨S_, .i32⟩
  | .hbm, ⟨87, _⟩ => ⟨S8192, .i32⟩
  | .hbm, ⟨88, _⟩ => ⟨S8192, .i1⟩
  | .hbm, ⟨89, _⟩ => ⟨S_, .i32⟩
  | .hbm, ⟨90, _⟩ => ⟨S8192, .i32⟩
  | .hbm, ⟨91, _⟩ => ⟨S8192, .i32⟩
  | .hbm, ⟨92, _⟩ => ⟨S8192, .i32⟩
  | .hbm, ⟨93, _⟩ => ⟨S_, .i32⟩
  | .hbm, ⟨94, _⟩ => ⟨S8192, .i32⟩
  | .hbm, ⟨95, _⟩ => ⟨S8192, .i1⟩
  | .hbm, ⟨96, _⟩ => ⟨S_, .i32⟩
  | .hbm, ⟨97, _⟩ => ⟨S8192, .i32⟩
  | .hbm, ⟨98, _⟩ => ⟨S8192, .i32⟩
  | .hbm, ⟨99, _⟩ => ⟨S8192, .i32⟩
  | .hbm, ⟨100, _⟩ => ⟨S8192x1, .i32⟩
  | .hbm, ⟨101, _⟩ => ⟨S8192x1, .i32⟩
  | .hbm, ⟨102, _⟩ => ⟨S8192x2, .i32⟩
  | .hbm, ⟨103, _⟩ => ⟨S8192x4096, .f32⟩
  | .hbm, ⟨104, _⟩ => ⟨S8192x1, .i1⟩
  | .hbm, ⟨105, _⟩ => ⟨S8192x1, .f32⟩
  | .hbm, ⟨106, _⟩ => ⟨S8192x4096, .f32⟩
  | .hbm, ⟨107, _⟩ => ⟨S8192x4096, .f32⟩
  | .hbm, ⟨108, _⟩ => ⟨S8192x1, .f32⟩
  | .hbm, ⟨109, _⟩ => ⟨S8192x4096, .f32⟩
  | .hbm, ⟨110, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v5 : Ref sig .tc := ⟨.hbm, 40, rfl⟩
abbrev main_v6 : Ref sig .tc := ⟨.hbm, 41, rfl⟩
abbrev main_c_0 : Ref sig .tc := ⟨.hbm, 42, rfl⟩
abbrev main_v7 : Ref sig .tc := ⟨.hbm, 43, rfl⟩
abbrev main_v8 : Ref sig .tc := ⟨.hbm, 44, rfl⟩
abbrev main_c_1 : Ref sig .tc := ⟨.hbm, 45, rfl⟩
abbrev main_call3_v0 : Ref sig .tc := ⟨.hbm, 46, rfl⟩
abbrev main_call3_v1 : Ref sig .tc := ⟨.hbm, 47, rfl⟩
abbrev main_v9 : Ref sig .tc := ⟨.hbm, 48, rfl⟩
abbrev main_c_2 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_c_3 : Ref sig .tc := ⟨.hbm, 54, rfl⟩
abbrev main_v13 : Ref sig .tc := ⟨.hbm, 55, rfl⟩
abbrev main_v14 : Ref sig .tc := ⟨.hbm, 56, rfl⟩
abbrev main_c_4 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_c_5 : Ref sig .tc := ⟨.hbm, 61, rfl⟩
abbrev main_v18 : Ref sig .tc := ⟨.hbm, 62, rfl⟩
abbrev main_v19 : Ref sig .tc := ⟨.hbm, 63, rfl⟩
abbrev main_c_6 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_call4_v0 : Ref sig .tc := ⟨.hbm, 74, rfl⟩
abbrev main_call4_v1 : Ref sig .tc := ⟨.hbm, 75, rfl⟩
abbrev main_call4_cst : Ref sig .tc := ⟨.hbm, 76, rfl⟩
abbrev main_call4_v2 : Ref sig .tc := ⟨.hbm, 77, rfl⟩
abbrev main_call4_v3 : Ref sig .tc := ⟨.hbm, 78, rfl⟩
abbrev main_call4_cst_0 : Ref sig .tc := ⟨.hbm, 79, rfl⟩
abbrev main_call4_v4 : Ref sig .tc := ⟨.hbm, 80, rfl⟩
abbrev main_call4_v5 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_c_7 : Ref sig .tc := ⟨.hbm, 86, rfl⟩
abbrev main_v33 : Ref sig .tc := ⟨.hbm, 87, rfl⟩
abbrev main_v34 : Ref sig .tc := ⟨.hbm, 88, rfl⟩
abbrev main_c_8 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_c_9 : Ref sig .tc := ⟨.hbm, 93, rfl⟩
abbrev main_v38 : Ref sig .tc := ⟨.hbm, 94, rfl⟩
abbrev main_v39 : Ref sig .tc := ⟨.hbm, 95, rfl⟩
abbrev main_c_10 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S1x16_S8192x16_0_1 : S1x16.BroadcastsInDim S8192x16 (![0, 1] : Fin 2 → Fin S8192x16.rank)
  natLt_1_32 : 1 < 32
  bcast_S_S_ : S_.BroadcastsInDim S_ (![] : Fin 0 → Fin S_.rank)
  reduceWindows_S8192x16_S8192x16_w8192s1p8191_0_w1s1p0_0 : S8192x16.ReduceWindows (![8192, 1] : Fin 2 → Nat) ![1, 1] ![8191, 0] ![0, 0] S8192x16
  h_S_ : 0 < S_.numel
  bcast_S_S8192x16 : S_.BroadcastsInDim S8192x16 (![] : Fin 0 → Fin S8192x16.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bcast_S_S17x640x4096 : S_.BroadcastsInDim S17x640x4096 (![] : Fin 0 → Fin S17x640x4096.rank)
  concatenates_S8192x1_S8192x1_S8192x2_d1 : Shape.Concatenates [S8192x1, S8192x1] S8192x2 1
  slices_S17x640x4096_S16x640x4096_0_0_0 : S17x640x4096.Slices ![0, 0, 0] S16x640x4096
  bcast_S_S16x640x688 : S_.BroadcastsInDim S16x640x688 (![] : Fin 0 → Fin S16x640x688.rank)
  bcast_S8192x1_S8192x4096_0_1 : S8192x1.BroadcastsInDim S8192x4096 (![0, 1] : Fin 2 → Fin S8192x4096.rank)
  gather_S8192x16_S8192x1x1_S8192x1_n_1_0_0_1_2_11_wf : GatherDims.WF S8192x16 S8192x1x1 S8192x1 [] [1] [0] [1] [0] 2 ![1, 1]
  scatter_S17x640x4096_S8192x2_S8192x4096_1_01_01_1_wf : ScatterDims.WF S17x640x4096 S8192x2 S8192x4096 [1] [0, 1] [0, 1] 1
  dot_S16x640x4096_S16x4096x688_S16x640x688_2_1_1_2_0_0_wf : DotDims.WF S16x640x4096 S16x4096x688 S16x640x688 [2] [1] [1] [2] [0] [0]
  dot_S16x640x688_S16x688x4096_S16x640x4096_2_1_1_2_0_0_wf : DotDims.WF S16x640x688 S16x688x4096 S16x640x4096 [2] [1] [1] [2] [0] [0]
  gather_S16x640x4096_S8192x2_S8192x4096_1_01_n_n_01_1_114096_wf : GatherDims.WF S16x640x4096 S8192x2 S8192x4096 [1] [0, 1] [] [0, 1] [] 1 ![1, 1, 4096]

variable [Facts₀]

def gather_S8192x16_S8192x1x1_S8192x1_n_1_0_0_1_2_11 : GatherDims S8192x16 S8192x1x1 S8192x1 where
  offsetDims := []
  collapsedSliceDims := [1]
  operandBatchingDims := [0]
  startIndicesBatchingDims := [0]
  startIndexMap := [1]
  indexVectorDim := 2
  sliceSizes := ![1, 1]
  wf := gather_S8192x16_S8192x1x1_S8192x1_n_1_0_0_1_2_11_wf
def scatter_S17x640x4096_S8192x2_S8192x4096_1_01_01_1 : ScatterDims S17x640x4096 S8192x2 S8192x4096 where
  updateWindowDims := [1]
  insertedWindowDims := [0, 1]
  scatterDimsToOperandDims := [0, 1]
  indexVectorDim := 1
  wf := scatter_S17x640x4096_S8192x2_S8192x4096_1_01_01_1_wf
def dot_S16x640x4096_S16x4096x688_S16x640x688_2_1_1_2_0_0 : DotDims S16x640x4096 S16x4096x688 S16x640x688 where
  lhsContracting := [2]
  rhsContracting := [1]
  lhsNonContracting := [1]
  rhsNonContracting := [2]
  lhsBatch := [0]
  rhsBatch := [0]
  wf := dot_S16x640x4096_S16x4096x688_S16x640x688_2_1_1_2_0_0_wf
def dot_S16x640x688_S16x688x4096_S16x640x4096_2_1_1_2_0_0 : DotDims S16x640x688 S16x688x4096 S16x640x4096 where
  lhsContracting := [2]
  rhsContracting := [1]
  lhsNonContracting := [1]
  rhsNonContracting := [2]
  lhsBatch := [0]
  rhsBatch := [0]
  wf := dot_S16x640x688_S16x688x4096_S16x640x4096_2_1_1_2_0_0_wf
def gather_S16x640x4096_S8192x2_S8192x4096_1_01_n_n_01_1_114096 : GatherDims S16x640x4096 S8192x2 S8192x4096 where
  offsetDims := [1]
  collapsedSliceDims := [0, 1]
  operandBatchingDims := []
  startIndicesBatchingDims := []
  startIndexMap := [0, 1]
  indexVectorDim := 1
  sliceSizes := ![1, 1, 4096]
  wf := gather_S16x640x4096_S8192x2_S8192x4096_1_01_n_n_01_1_114096_wf

class Facts : Prop extends Facts₀ where

variable [Facts]
-- ==== Proof.RefOpsList.lean ====
/- The reference program's host operations as three literal lists, every call of a module-local function replaced in
   place by the function's own operations over the call's buffer record: the operations up to the dispatched buffer,
   the feed-forward stretch on it, and the operations after it. A table; the statements about it are in RefRun.lean. -/
import proofs.«102018_j57114475102484_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The 67 operations up to the dispatched buffer: routing positions, the keep mask, the scatter and its slice. -/
abbrev pre : List (HloOp τ sig (Elt F)) :=
  [ StableHlo.TRef.unary (.of main_arg1 : StableHlo.TRef sig ⟨S8192, .i32⟩) main_call0.v0 (broadcastInDim S8192x1 ![0] bcast_S8192_S8192x1_0),
    StableHlo.TRef.nullary main_call0.v1 (iotaInDim S1x16 32 1),
    StableHlo.TRef.unary main_call0.v0 main_call0.v2 (broadcastInDim S8192x16 ![0, 1] bcast_S8192x1_S8192x16_0_1),
    StableHlo.TRef.unary main_call0.v1 main_call0.v3 (broadcastInDim S8192x16 ![0, 1] bcast_S1x16_S8192x16_0_1),
    StableHlo.TRef.binary main_call0.v2 main_call0.v3 main_call0.v4 (cmpi .eq),
    StableHlo.TRef.unary main_call0.v4 main_call0.v5 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (.of main_v0 : StableHlo.TRef sig ⟨S8192x16, .i32⟩) main_call1.call0.v0 main_call1.call0.v1 (fun x v => Host.reduceWindow IntOp.addi ![8192, 1] ![1, 1] ![8191, 0] ![0, 0] x v reduceWindows_S8192x16_S8192x16_w8192s1p8191_0_w1s1p0_0 h_S_),
    StableHlo.nullary main_c (constantI S_ 32 1#32),
    StableHlo.unary main_c main_v2 (broadcastInDim S8192x16 ![] bcast_S_S8192x16 : (⟨S_, .i32⟩ : BufTy).Contents (Elt F) → (⟨S8192x16, .i32⟩ : BufTy).Contents (Elt F)),
    StableHlo.binary main_v1 main_v2 main_v3 (subi : (⟨S8192x16, .i32⟩ : BufTy).Contents (Elt F) → (⟨S8192x16, .i32⟩ : BufTy).Contents (Elt F) → (⟨S8192x16, .i32⟩ : BufTy).Contents (Elt F)),
    StableHlo.unary main_arg1 main_v4 (broadcastInDim S8192x1 ![0] bcast_S8192_S8192x1_0 : (⟨S8192, .i32⟩ : BufTy).Contents (Elt F) → (⟨S8192x1, .i32⟩ : BufTy).Contents (Elt F)),
    StableHlo.TRef.nullary main_call2.c (constantI S_ 32 0#32),
    StableHlo.TRef.unary main_call2.c main_call2.v0 (broadcastInDim S8192x1 ![] bcast_S_S8192x1),
    StableHlo.TRef.binary (.of main_v4 : StableHlo.TRef sig ⟨S8192x1, .i32⟩) main_call2.v0 main_call2.v1 (cmpi .slt),
    StableHlo.TRef.nullary main_call2.c_0 (constantI S_ 32 16#32),
    StableHlo.TRef.unary main_call2.c_0 main_call2.v2 (broadcastInDim S8192x1 ![] bcast_S_S8192x1),
    StableHlo.TRef.binary (.of main_v4 : StableHlo.TRef sig ⟨S8192x1, .i32⟩) main_call2.v2 main_call2.v3 addi,
    StableHlo.TRef.ternary main_call2.v1 main_call2.v3 (.of main_v4 : StableHlo.TRef sig ⟨S8192x1, .i32⟩) main_call2.v4 select,
    StableHlo.TRef.reshape main_call2.v4 main_call2.v5 rfl shapeCasts_S8192x1_S8192x1x1,
    StableHlo.TRef.nullary main_call2.c_1 (constantI S1 32 15#32),
    StableHlo.TRef.nullary main_call2.c_2 (constantI S_ 32 0#32),
    StableHlo.TRef.unary main_call2.c_2 main_call2.v6 (broadcastInDim S8192x1x1 ![] bcast_S_S8192x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S8192x1x1 ![0, 1, 2] bcast_S1x1x1_S8192x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8192x1x1_S8192x1_d2 h_S_),
    StableHlo.TRef.binary (.of main_v3 : StableHlo.TRef sig ⟨S8192x16, .i32⟩) main_call2.v5 main_call2.v13 (fun x i => Host.gather gather_S8192x16_S8192x1x1_S8192x1_n_1_0_0_1_2_11 x i),
    StableHlo.TRef.nullary main_call2.c_4 (constantI S_ 32 2147483648#32),
    StableHlo.TRef.unary main_call2.c_4 main_call2.v14 (broadcastInDim S8192x1 ![] bcast_S_S8192x1),
    StableHlo.TRef.ternary main_call2.v12 main_call2.v13 main_call2.v14 main_call2.v15 select,
    StableHlo.reshape main_v5 main_v6 rfl shapeCasts_S8192x1_S8192,
    StableHlo.nullary main_c_0 (constantI S_ 32 640#32),
    StableHlo.unary main_c_0 main_v7 (broadcastInDim S8192 ![] bcast_S_S8192 : (⟨S_, .i32⟩ : BufTy).Contents (Elt F) → (⟨S8192, .i32⟩ : BufTy).Contents (Elt F)),
    StableHlo.binary main_v6 main_v7 main_v8 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 16#32),
    StableHlo.TRef.unary (.of main_c_1 : StableHlo.TRef sig ⟨S_, .i32⟩) main_call3.v0 id,
    StableHlo.TRef.unary main_call3.v0 main_call3.v1 (broadcastInDim S8192 ![] bcast_S_S8192),
    StableHlo.TRef.ternary (.of main_v8 : StableHlo.TRef sig ⟨S8192, .i1⟩) (.of main_arg1 : StableHlo.TRef sig ⟨S8192, .i32⟩) main_call3.v1 main_call3.v2 select,
    StableHlo.nullary main_c_2 (constantI S_ 32 639#32),
    StableHlo.unary main_c_2 main_v10 (broadcastInDim S8192 ![] bcast_S_S8192 : (⟨S_, .i32⟩ : BufTy).Contents (Elt F) → (⟨S8192, .i32⟩ : BufTy).Contents (Elt F)),
    StableHlo.binary main_v6 main_v10 main_v11 (minsi : (⟨S8192, .i32⟩ : BufTy).Contents (Elt F) → (⟨S8192, .i32⟩ : BufTy).Contents (Elt F) → (⟨S8192, .i32⟩ : BufTy).Contents (Elt F)),
    StableHlo.nullary main_cst (constant S_ .f32 0x00000000#32),
    StableHlo.unary main_cst main_v12 (broadcastInDim S17x640x4096 ![] bcast_S_S17x640x4096 : (⟨S_, .f32⟩ : BufTy).Contents (Elt F) → (⟨S17x640x4096, .f32⟩ : BufTy).Contents (Elt F)),
    StableHlo.nullary main_c_3 (constantI S_ 32 0#32),
    StableHlo.unary main_c_3 main_v13 (broadcastInDim S8192 ![] bcast_S_S8192 : (⟨S_, .i32⟩ : BufTy).Contents (Elt F) → (⟨S8192, .i32⟩ : BufTy).Contents (Elt F)),
    StableHlo.binary main_v9 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 17#32),
    StableHlo.unary main_c_4 main_v15 (broadcastInDim S8192 ![] bcast_S_S8192 : (⟨S_, .i32⟩ : BufTy).Contents (Elt F) → (⟨S8192, .i32⟩ : BufTy).Contents (Elt F)),
    StableHlo.binary main_v9 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v9 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_5 (constantI S_ 32 0#32),
    StableHlo.unary main_c_5 main_v18 (broadcastInDim S8192 ![] bcast_S_S8192 : (⟨S_, .i32⟩ : BufTy).Contents (Elt F) → (⟨S8192, .i32⟩ : BufTy).Contents (Elt F)),
    StableHlo.binary main_v11 main_v18 main_v19 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 640#32),
    StableHlo.unary main_c_6 main_v20 (broadcastInDim S8192 ![] bcast_S_S8192 : (⟨S_, .i32⟩ : BufTy).Contents (Elt F) → (⟨S8192, .i32⟩ : BufTy).Contents (Elt F)),
    StableHlo.binary main_v11 main_v20 main_v21 (addi : (⟨S8192, .i32⟩ : BufTy).Contents (Elt F) → (⟨S8192, .i32⟩ : BufTy).Contents (Elt F) → (⟨S8192, .i32⟩ : BufTy).Contents (Elt F)),
    StableHlo.ternary main_v19 main_v21 main_v11 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v23 (broadcastInDim S8192x1 ![0] bcast_S8192_S8192x1_0 : (⟨S8192, .i32⟩ : BufTy).Contents (Elt F) → (⟨S8192x1, .i32⟩ : BufTy).Contents (Elt F)),
    StableHlo.unary main_v22 main_v24 (broadcastInDim S8192x1 ![0] bcast_S8192_S8192x1_0 : (⟨S8192, .i32⟩ : BufTy).Contents (Elt F) → (⟨S8192x1, .i32⟩ : BufTy).Contents (Elt F)),
    StableHlo.binary main_v23 main_v24 main_v25 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v12 main_v25 main_arg0 main_v26 ((fun x i u => Host.scatter scatter_S17x640x4096_S8192x2_S8192x4096_1_01_01_1 (fun _ b => b) x i u) : (⟨S17x640x4096, .f32⟩ : BufTy).Contents (Elt F) → (⟨S8192x2, .i32⟩ : BufTy).Contents (Elt F) → (⟨S8192x4096, .f32⟩ : BufTy).Contents (Elt F) → (⟨S17x640x4096, .f32⟩ : BufTy).Contents (Elt F)),
    StableHlo.unary main_v26 main_v27 ((extractStridedSlice S16x640x4096 ![0, 0, 0] · slices_S17x640x4096_S16x640x4096_0_0_0) : (⟨S17x640x4096, .f32⟩ : BufTy).Contents (Elt F) → (⟨S16x640x4096, .f32⟩ : BufTy).Contents (Elt F)) ]
/-- Each touches TensorCore references only. -/
theorem pre_sub : (pre : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub ..⟩

/-- The 13 operations of the feed-forward block: gate and up products, the SwiGLU unit, the down product. -/
abbrev mid : List (HloOp τ sig (Elt F)) :=
  [ StableHlo.binary main_v27 main_arg3 main_v28 ((fun l r => Host.dotGeneral dot_S16x640x4096_S16x4096x688_S16x640x688_2_1_1_2_0_0 none l r) : (⟨S16x640x4096, .f32⟩ : BufTy).Contents (Elt F) → (⟨S16x4096x688, .f32⟩ : BufTy).Contents (Elt F) → (⟨S16x640x688, .f32⟩ : BufTy).Contents (Elt F)),
    StableHlo.TRef.unary (.of main_v28 : StableHlo.TRef sig ⟨S16x640x688, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S16x640x688 ![] bcast_S_S16x640x688),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S16x640x688 ![] bcast_S_S16x640x688),
    StableHlo.TRef.binary main_call4.v4 main_call4.v3 main_call4.v5 Host.divf,
    StableHlo.TRef.binary (.of main_v28 : StableHlo.TRef sig ⟨S16x640x688, .f32⟩) main_call4.v5 main_call4.v6 mulf,
    StableHlo.binary main_v27 main_arg4 main_v30 ((fun l r => Host.dotGeneral dot_S16x640x4096_S16x4096x688_S16x640x688_2_1_1_2_0_0 none l r) : (⟨S16x640x4096, .f32⟩ : BufTy).Contents (Elt F) → (⟨S16x4096x688, .f32⟩ : BufTy).Contents (Elt F) → (⟨S16x640x688, .f32⟩ : BufTy).Contents (Elt F)),
    StableHlo.binary main_v29 main_v30 main_v31 (mulf : (⟨S16x640x688, .f32⟩ : BufTy).Contents (Elt F) → (⟨S16x640x688, .f32⟩ : BufTy).Contents (Elt F) → (⟨S16x640x688, .f32⟩ : BufTy).Contents (Elt F)),
    StableHlo.binary main_v31 main_arg5 main_v32 ((fun l r => Host.dotGeneral dot_S16x640x688_S16x688x4096_S16x640x4096_2_1_1_2_0_0 none l r) : (⟨S16x640x688, .f32⟩ : BufTy).Contents (Elt F) → (⟨S16x688x4096, .f32⟩ : BufTy).Contents (Elt F) → (⟨S16x640x4096, .f32⟩ : BufTy).Contents (Elt F)) ]
/-- Each touches TensorCore references only. -/
theorem mid_sub : (mid : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub ..⟩

/-- The 25 operations after it: the gather back, the keep mask and the gate scores. -/
abbrev post : List (HloOp τ sig (Elt F)) :=
  [ StableHlo.nullary main_c_7 (constantI S_ 32 0#32),
    StableHlo.unary main_c_7 main_v33 (broadcastInDim S8192 ![] bcast_S_S8192 : (⟨S_, .i32⟩ : BufTy).Contents (Elt F) → (⟨S8192, .i32⟩ : BufTy).Contents (Elt F)),
    StableHlo.binary main_arg1 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 16#32),
    StableHlo.unary main_c_8 main_v35 (broadcastInDim S8192 ![] bcast_S_S8192 : (⟨S_, .i32⟩ : BufTy).Contents (Elt F) → (⟨S8192, .i32⟩ : BufTy).Contents (Elt F)),
    StableHlo.binary main_arg1 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_arg1 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v38 (broadcastInDim S8192 ![] bcast_S_S8192 : (⟨S_, .i32⟩ : BufTy).Contents (Elt F) → (⟨S8192, .i32⟩ : BufTy).Contents (Elt F)),
    StableHlo.binary main_v11 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 640#32),
    StableHlo.unary main_c_10 main_v40 (broadcastInDim S8192 ![] bcast_S_S8192 : (⟨S_, .i32⟩ : BufTy).Contents (Elt F) → (⟨S8192, .i32⟩ : BufTy).Contents (Elt F)),
    StableHlo.binary main_v11 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v11 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v37 main_v43 (broadcastInDim S8192x1 ![0] bcast_S8192_S8192x1_0 : (⟨S8192, .i32⟩ : BufTy).Contents (Elt F) → (⟨S8192x1, .i32⟩ : BufTy).Contents (Elt F)),
    StableHlo.unary main_v42 main_v44 (broadcastInDim S8192x1 ![0] bcast_S8192_S8192x1_0 : (⟨S8192, .i32⟩ : BufTy).Contents (Elt F) → (⟨S8192x1, .i32⟩ : BufTy).Contents (Elt F)),
    StableHlo.binary main_v43 main_v44 main_v45 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v32 main_v45 main_v46 ((fun x i => Host.gather gather_S16x640x4096_S8192x2_S8192x4096_1_01_n_n_01_1_114096 x i) : (⟨S16x640x4096, .f32⟩ : BufTy).Contents (Elt F) → (⟨S8192x2, .i32⟩ : BufTy).Contents (Elt F) → (⟨S8192x4096, .f32⟩ : BufTy).Contents (Elt F)),
    StableHlo.unary main_v8 main_v47 (broadcastInDim S8192x1 ![0] bcast_S8192_S8192x1_0 : (⟨S8192, .i1⟩ : BufTy).Contents (Elt F) → (⟨S8192x1, .i1⟩ : BufTy).Contents (Elt F)),
    StableHlo.unary main_v47 main_v48 (uitofp .f32 : (⟨S8192x1, .i1⟩ : BufTy).Contents (Elt F) → (⟨S8192x1, .f32⟩ : BufTy).Contents (Elt F)),
    StableHlo.unary main_v48 main_v49 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v46 main_v49 main_v50 (mulf : (⟨S8192x4096, .f32⟩ : BufTy).Contents (Elt F) → (⟨S8192x4096, .f32⟩ : BufTy).Contents (Elt F) → (⟨S8192x4096, .f32⟩ : BufTy).Contents (Elt F)),
    StableHlo.unary main_arg2 main_v51 (broadcastInDim S8192x1 ![0] bcast_S8192_S8192x1_0 : (⟨S8192, .f32⟩ : BufTy).Contents (Elt F) → (⟨S8192x1, .f32⟩ : BufTy).Contents (Elt F)),
    StableHlo.unary main_v51 main_v52 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v50 main_v52 main_v53 (mulf : (⟨S8192x4096, .f32⟩ : BufTy).Contents (Elt F) → (⟨S8192x4096, .f32⟩ : BufTy).Contents (Elt F) → (⟨S8192x4096, .f32⟩ : BufTy).Contents (Elt F)) ]
/-- Each touches TensorCore references only. -/
theorem post_sub : (post : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., unary_bufs_sub .., binary_bufs_sub .., unary_bufs_sub .., unary_bufs_sub .., binary_bufs_sub ..⟩

end Cert.ReferenceIdeal.Run

end
-- ==== Proof.RefRun.lean ====
/-
  The reference program run as one straight line of host operations: the routing positions and the dispatched buffer,
  the expert feed-forward block, the gather back scaled by the keep mask and the gate scores. Every weakly fair execution
  terminates with each buffer at the fold of those operations over the launch contents.
-/
import proofs.«102018_j57114475102484_1_alg».proof.Proof.RefOpsList
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole program: the prefix, the feed-forward stretch, the tail. -/
abbrev ops : List (HloOp τ sig (Elt F)) := pre ++ (mid ++ post)

/-- The printed program is that line: the calls unfold to their operations and the sequencing re-associates by computation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: each of the three lists does. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp pre_sub op h
    · rcases List.mem_append.mp h with h | h
      · exact List.forall_iff_forall_mem.mp mid_sub op h
      · exact List.forall_iff_forall_mem.mp post_sub op h

/-- No operation allocates. -/
theorem ops_fresh : (ops : List (HloOp τ sig (Elt F))).Forall fun op => op.fresh = ∅ := by
  simp only [ops, pre, mid, post, List.cons_append, List.nil_append, List.Forall]
  repeat' constructor

/-- On every device, from any memory with zero counters: every weakly fair execution terminates with each buffer at the
    operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (hfresh := fun _ => List.forall_iff_forall_mem.mp ops_fresh)

end Cert.ReferenceIdeal.Run

end
-- ==== Proof.Join.lean ====
/-
  Small facts the two host programs' comparison uses: a two-column join as a plain binary function, and the two zero
  patterns (sixteen- and thirty-two-bit) denoting the same extended real, zero.
-/
import Idealize.ShloMosaic.PureOps.Ideal
import Idealize.ShloMosaic.PureOps.IdealRules
import Idealize.ShloMosaic.PureOps

noncomputable section

namespace Cert.Bridge

open Idealize.ShloMosaic

/-- Two index columns joined along the second axis, as a function of the two columns (the printed operation takes them
    inside a list of pieces). -/
def join2 (h : Shape.Concatenates [(⟨2, ![8192, 1]⟩ : Shape), ⟨2, ![8192, 1]⟩] ⟨2, ![8192, 2]⟩ 1)
    (a b : IVec ⟨2, ![8192, 1]⟩ 32) : IVec ⟨2, ![8192, 2]⟩ 32 :=
  concatenate ⟨2, ![8192, 2]⟩ 1 [⟨⟨2, ![8192, 1]⟩, a⟩, ⟨⟨2, ![8192, 1]⟩, b⟩] h

theorem join2_eq (h : Shape.Concatenates [(⟨2, ![8192, 1]⟩ : Shape), ⟨2, ![8192, 1]⟩] ⟨2, ![8192, 2]⟩ 1)
    (a b : IVec ⟨2, ![8192, 1]⟩ 32) :
    concatenate ⟨2, ![8192, 2]⟩ 1 [⟨⟨2, ![8192, 1]⟩, a⟩, ⟨⟨2, ![8192, 1]⟩, b⟩] h = join2 h a b := rfl

/-- The scalar zero of the narrow format and of the wide one are the same extended real. -/
theorem zero_narrow_eq_wide :
    (constant (F := Ideal) (⟨0, ![]⟩ : Shape) .bf16 0x0000#16 : (⟨0, ![]⟩ : Shape).Idx → EReal)
      = constant (F := Ideal) (⟨0, ![]⟩ : Shape) .f32 0x00000000#32 :=
  funext fun _ => (IdealRules.sign_bit.ideal_zero .bf16).trans (IdealRules.sign_bit.ideal_zero .f32).symm

end Cert.Bridge

end
-- ==== Proof.Vals.lean ====
/-
  Names for a device's buffer contents in the two idealized programs.
-/
import proofs.«102018_j57114475102484_1_alg».proof.Proof.Gen.KernelIdeal.Launch
import proofs.«102018_j57114475102484_1_alg».proof.Proof.RefOpsList
import proofs.«102018_j57114475102484_1_alg».proof.Proof.Join
import Idealize.ShloMosaic.Lib.StableHlo.Run
import Idealize.ShloMosaic.PureOps.Ideal

noncomputable section

namespace Cert.Bridge

open Idealize.ShloMosaic Idealize.SL.Sem Idealize.ShloMosaic.StableHlo

/-- A device's buffer contents in the kernel program. -/
abbrev KV := Valuation Cert.KernelIdeal.τ Cert.KernelIdeal.sig (Elt Ideal)
/-- A device's buffer contents in the reference program. -/
abbrev RV := Valuation Cert.ReferenceIdeal.τ Cert.ReferenceIdeal.sig (Elt Ideal)

end Cert.Bridge

end
-- ==== Proof.RefKeeps.lean ====
/-
  Which buffers the reference program's three stretches leave alone: no stretch writes an argument array; the
  feed-forward stretch writes neither the clamped positions nor the keep mask.
-/
import proofs.«102018_j57114475102484_1_alg».proof.Proof.RefRun
import proofs.«102018_j57114475102484_1_alg».proof.Proof.Vals
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

/-! ## The whole line keeps every argument array -/
set_option maxHeartbeats 1000000 in
theorem ops_keeps_arg0 (V : RV) : after (Cert.ReferenceIdeal.Run.ops (F := Ideal)) V (Proc.devRef .tc Cert.ReferenceIdeal.main_arg0) = V (Proc.devRef .tc Cert.ReferenceIdeal.main_arg0) := by
  simp only [Cert.ReferenceIdeal.Run.ops, Cert.ReferenceIdeal.Run.pre, Cert.ReferenceIdeal.Run.mid, Cert.ReferenceIdeal.Run.post, List.cons_append, List.nil_append]
  after_results_simp
set_option maxHeartbeats 1000000 in
theorem ops_keeps_arg1 (V : RV) : after (Cert.ReferenceIdeal.Run.ops (F := Ideal)) V (Proc.devRef .tc Cert.ReferenceIdeal.main_arg1) = V (Proc.devRef .tc Cert.ReferenceIdeal.main_arg1) := by
  simp only [Cert.ReferenceIdeal.Run.ops, Cert.ReferenceIdeal.Run.pre, Cert.ReferenceIdeal.Run.mid, Cert.ReferenceIdeal.Run.post, List.cons_append, List.nil_append]
  after_results_simp
set_option maxHeartbeats 1000000 in
theorem ops_keeps_arg2 (V : RV) : after (Cert.ReferenceIdeal.Run.ops (F := Ideal)) V (Proc.devRef .tc Cert.ReferenceIdeal.main_arg2) = V (Proc.devRef .tc Cert.ReferenceIdeal.main_arg2) := by
  simp only [Cert.ReferenceIdeal.Run.ops, Cert.ReferenceIdeal.Run.pre, Cert.ReferenceIdeal.Run.mid, Cert.ReferenceIdeal.Run.post, List.cons_append, List.nil_append]
  after_results_simp
set_option maxHeartbeats 1000000 in
theorem ops_keeps_arg3 (V : RV) : after (Cert.ReferenceIdeal.Run.ops (F := Ideal)) V (Proc.devRef .tc Cert.ReferenceIdeal.main_arg3) = V (Proc.devRef .tc Cert.ReferenceIdeal.main_arg3) := by
  simp only [Cert.ReferenceIdeal.Run.ops, Cert.ReferenceIdeal.Run.pre, Cert.ReferenceIdeal.Run.mid, Cert.ReferenceIdeal.Run.post, List.cons_append, List.nil_append]
  after_results_simp
set_option maxHeartbeats 1000000 in
theorem ops_keeps_arg4 (V : RV) : after (Cert.ReferenceIdeal.Run.ops (F := Ideal)) V (Proc.devRef .tc Cert.ReferenceIdeal.main_arg4) = V (Proc.devRef .tc Cert.ReferenceIdeal.main_arg4) := by
  simp only [Cert.ReferenceIdeal.Run.ops, Cert.ReferenceIdeal.Run.pre, Cert.ReferenceIdeal.Run.mid, Cert.ReferenceIdeal.Run.post, List.cons_append, List.nil_append]
  after_results_simp
set_option maxHeartbeats 1000000 in
theorem ops_keeps_arg5 (V : RV) : after (Cert.ReferenceIdeal.Run.ops (F := Ideal)) V (Proc.devRef .tc Cert.ReferenceIdeal.main_arg5) = V (Proc.devRef .tc Cert.ReferenceIdeal.main_arg5) := by
  simp only [Cert.ReferenceIdeal.Run.ops, Cert.ReferenceIdeal.Run.pre, Cert.ReferenceIdeal.Run.mid, Cert.ReferenceIdeal.Run.post, List.cons_append, List.nil_append]
  after_results_simp

/-! ## The prefix keeps the expert indices, the scores and the weights -/
set_option maxHeartbeats 1000000 in
theorem pre_keeps_arg1 (V : RV) : after (Cert.ReferenceIdeal.Run.pre (F := Ideal)) V (Proc.devRef .tc Cert.ReferenceIdeal.main_arg1) = V (Proc.devRef .tc Cert.ReferenceIdeal.main_arg1) := by
  after_results_simp
set_option maxHeartbeats 1000000 in
theorem pre_keeps_arg2 (V : RV) : after (Cert.ReferenceIdeal.Run.pre (F := Ideal)) V (Proc.devRef .tc Cert.ReferenceIdeal.main_arg2) = V (Proc.devRef .tc Cert.ReferenceIdeal.main_arg2) := by
  after_results_simp
set_option maxHeartbeats 1000000 in
theorem pre_keeps_arg3 (V : RV) : after (Cert.ReferenceIdeal.Run.pre (F := Ideal)) V (Proc.devRef .tc Cert.ReferenceIdeal.main_arg3) = V (Proc.devRef .tc Cert.ReferenceIdeal.main_arg3) := by
  after_results_simp
set_option maxHeartbeats 1000000 in
theorem pre_keeps_arg4 (V : RV) : after (Cert.ReferenceIdeal.Run.pre (F := Ideal)) V (Proc.devRef .tc Cert.ReferenceIdeal.main_arg4) = V (Proc.devRef .tc Cert.ReferenceIdeal.main_arg4) := by
  after_results_simp
set_option maxHeartbeats 1000000 in
theorem pre_keeps_arg5 (V : RV) : after (Cert.ReferenceIdeal.Run.pre (F := Ideal)) V (Proc.devRef .tc Cert.ReferenceIdeal.main_arg5) = V (Proc.devRef .tc Cert.ReferenceIdeal.main_arg5) := by
  after_results_simp

/-! ## The feed-forward stretch keeps the expert indices, the scores, the clamped positions and the keep mask -/
set_option maxHeartbeats 1000000 in
theorem mid_keeps_arg1 (V : RV) : after (Cert.ReferenceIdeal.Run.mid (F := Ideal)) V (Proc.devRef .tc Cert.ReferenceIdeal.main_arg1) = V (Proc.devRef .tc Cert.ReferenceIdeal.main_arg1) := by
  after_results_simp
set_option maxHeartbeats 1000000 in
theorem mid_keeps_arg2 (V : RV) : after (Cert.ReferenceIdeal.Run.mid (F := Ideal)) V (Proc.devRef .tc Cert.ReferenceIdeal.main_arg2) = V (Proc.devRef .tc Cert.ReferenceIdeal.main_arg2) := by
  after_results_simp
set_option maxHeartbeats 1000000 in
theorem mid_keeps_v11 (V : RV) : after (Cert.ReferenceIdeal.Run.mid (F := Ideal)) V (Proc.devRef .tc Cert.ReferenceIdeal.main_v11) = V (Proc.devRef .tc Cert.ReferenceIdeal.main_v11) := by
  after_results_simp
set_option maxHeartbeats 1000000 in
theorem mid_keeps_v8 (V : RV) : after (Cert.ReferenceIdeal.Run.mid (F := Ideal)) V (Proc.devRef .tc Cert.ReferenceIdeal.main_v8) = V (Proc.devRef .tc Cert.ReferenceIdeal.main_v8) := by
  after_results_simp

end Cert.Bridge

end
-- ==== Proof.MoeSpec.lean ====
/-
  The mathematics both programs compute for one expert's capacity buffer, stated once over the extended reals.
  For expert `e`, buffer row `r` and hidden unit `f` the gate and up projections are the sums over the model
  axis of a buffer entry times a weight; the hidden activation is `gate · logistic gate · up` (the SwiGLU unit,
  `silu x = x · logistic x`); the output at model coordinate `d` is the sum over the hidden axis of the activation
  times the down weight. Nothing here mentions a program: the arrays are plain functions on index sets.
-/
import Idealize.ShloMosaic.PureOps.Ideal
import Idealize.ShloMosaic.Lib.ValueIdx

noncomputable section

open scoped BigOperators

namespace Cert.Moe

open Idealize.ShloMosaic Idealize.ShloMosaic.ValueIdx

/-- The dispatched buffer and the experts' outputs: expert × capacity row × model coordinate. -/
abbrev Tok : Shape := ⟨3, ![16, 640, 4096]⟩
/-- The gate and up weights: expert × model coordinate × hidden unit. -/
abbrev Wup : Shape := ⟨3, ![16, 4096, 688]⟩
/-- The down weights: expert × hidden unit × model coordinate. -/
abbrev Wdn : Shape := ⟨3, ![16, 688, 4096]⟩

/-- A projection of buffer row `(e, r)` onto hidden unit `f`: the sum over the model axis. -/
def proj (buf : Tok.Idx → EReal) (w : Wup.Idx → EReal) (e : Fin 16) (r : Fin 640) (f : Fin 688) : EReal :=
  ∑ k : Fin 4096, buf (ix3 e r k) * w (ix3 e k f)

/-- The SwiGLU hidden activation: `gate · logistic gate · up`. -/
def hidden (buf : Tok.Idx → EReal) (wg wu : Wup.Idx → EReal) (e : Fin 16) (r : Fin 640) (f : Fin 688) : EReal :=
  proj buf wg e r f * Ideal.logistic (proj buf wg e r f) * proj buf wu e r f

/-- The expert feed-forward block on the whole buffer, index by index: the down projection of the hidden activation. -/
def ffn (buf : Tok.Idx → EReal) (wg wu : Wup.Idx → EReal) (wd : Wdn.Idx → EReal) : Tok.Idx → EReal :=
  fun i => ∑ f : Fin 688, hidden buf wg wu (i 0) (i 1) f * wd (ix3 (i 0) f (i 2))

end Cert.Moe

end
-- ==== Proof.KernelPayload.lean ====
/-
  The kernel body's stored value, read at one index of its block.
-/
import proofs.«102018_j57114475102484_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Arr

open Idealize.ShloMosaic Idealize.ShloMosaic.TcCoe Idealize.SL.Sem Idealize.ShloMosaic.ValueIdx
open Cert.KernelIdeal Cert.KernelIdeal.Gen

/-! ## The two contractions' operand indices, axis by axis -/

theorem lhs_up_0 (i : S128x688.Idx) (q : dot_S128x4096_S4096x688_S128x688_1_0_0_1_n_n.contr.Idx) :
    (dot_S128x4096_S4096x688_S128x688_1_0_0_1_n_n.lhsIdx i q 0).val = (i 0).val := by
  unfold DotDims.lhsIdx
  rw [dif_neg (show ¬(0 : Fin S128x4096.rank) ∈ dot_S128x4096_S4096x688_S128x688_1_0_0_1_n_n.lhsBatch by decide),
    dif_pos (show (0 : Fin S128x4096.rank) ∈ dot_S128x4096_S4096x688_S128x688_1_0_0_1_n_n.lhsNonContracting by decide)]
  rfl

theorem lhs_up_1 (i : S128x688.Idx) (q : dot_S128x4096_S4096x688_S128x688_1_0_0_1_n_n.contr.Idx) :
    (dot_S128x4096_S4096x688_S128x688_1_0_0_1_n_n.lhsIdx i q 1).val = (q ⟨0, by decide⟩).val :=
  dot_S128x4096_S4096x688_S128x688_1_0_0_1_n_n.lhsIdx_val_of_single rfl i q

theorem rhs_up_0 (i : S128x688.Idx) (q : dot_S128x4096_S4096x688_S128x688_1_0_0_1_n_n.contr.Idx) :
    (dot_S128x4096_S4096x688_S128x688_1_0_0_1_n_n.rhsIdx i q 0).val = (q ⟨0, by decide⟩).val :=
  dot_S128x4096_S4096x688_S128x688_1_0_0_1_n_n.rhsIdx_val_of_single rfl i q

theorem rhs_up_1 (i : S128x688.Idx) (q : dot_S128x4096_S4096x688_S128x688_1_0_0_1_n_n.contr.Idx) :
    (dot_S128x4096_S4096x688_S128x688_1_0_0_1_n_n.rhsIdx i q 1).val = (i 1).val := by
  unfold DotDims.rhsIdx
  rw [dif_neg (show ¬(1 : Fin S4096x688.rank) ∈ dot_S128x4096_S4096x688_S128x688_1_0_0_1_n_n.rhsBatch by decide),
    dif_pos (show (1 : Fin S4096x688.rank) ∈ dot_S128x4096_S4096x688_S128x688_1_0_0_1_n_n.rhsNonContracting by decide)]
  rfl

theorem lhs_dn_0 (i : S128x4096.Idx) (q : dot_S128x688_S688x4096_S128x4096_1_0_0_1_n_n.contr.Idx) :
    (dot_S128x688_S688x4096_S128x4096_1_0_0_1_n_n.lhsIdx i q 0).val = (i 0).val := by
  unfold DotDims.lhsIdx
  rw [dif_neg (show ¬(0 : Fin S128x688.rank) ∈ dot_S128x688_S688x4096_S128x4096_1_0_0_1_n_n.lhsBatch by decide),
    dif_pos (show (0 : Fin S128x688.rank) ∈ dot_S128x688_S688x4096_S128x4096_1_0_0_1_n_n.lhsNonContracting by decide)]
  rfl

theorem lhs_dn_1 (i : S128x4096.Idx) (q : dot_S128x688_S688x4096_S128x4096_1_0_0_1_n_n.contr.Idx) :
    (dot_S128x688_S688x4096_S128x4096_1_0_0_1_n_n.lhsIdx i q 1).val = (q ⟨0, by decide⟩).val :=
  dot_S128x688_S688x4096_S128x4096_1_0_0_1_n_n.lhsIdx_val_of_single rfl i q

theorem rhs_dn_0 (i : S128x4096.Idx) (q : dot_S128x688_S688x4096_S128x4096_1_0_0_1_n_n.contr.Idx) :
    (dot_S128x688_S688x4096_S128x4096_1_0_0_1_n_n.rhsIdx i q 0).val = (q ⟨0, by decide⟩).val :=
  dot_S128x688_S688x4096_S128x4096_1_0_0_1_n_n.rhsIdx_val_of_single rfl i q

theorem rhs_dn_1 (i : S128x4096.Idx) (q : dot_S128x688_S688x4096_S128x4096_1_0_0_1_n_n.contr.Idx) :
    (dot_S128x688_S688x4096_S128x4096_1_0_0_1_n_n.rhsIdx i q 1).val = (i 1).val := by
  unfold DotDims.rhsIdx
  rw [dif_neg (show ¬(1 : Fin S688x4096.rank) ∈ dot_S128x688_S688x4096_S128x4096_1_0_0_1_n_n.rhsBatch by decide),
    dif_pos (show (1 : Fin S688x4096.rank) ∈ dot_S128x688_S688x4096_S128x4096_1_0_0_1_n_n.rhsNonContracting by decide)]
  rfl

/-! ## The contractions at an index: sums over the contracted coordinate -/

/-- A row block times a [4096, 688] weight matrix into the zero accumulator, at (r, f): the sum over the model axis. -/
theorem up_apply (a : FVec Ideal S128x4096 .bf16) (b : FVec Ideal S4096x688 .bf16) (r : Fin 128) (f : Fin 688) :
    matmul dot_S128x4096_S4096x688_S128x688_1_0_0_1_n_n none a b (constant (F := Ideal) S128x688 .f32 0x00000000#32) (ix2 r f)
      = ∑ k : Fin 4096, a (ix2 r k) * b (ix2 k f) := by
  show FloatOps.matmul _ _ _ _ _ _ = _
  rw [Ideal.matmul_constant_zero_apply,
    ← Equiv.sum_comp (contrEquiv1 dot_S128x4096_S4096x688_S128x688_1_0_0_1_n_n 4096 rfl rfl).symm]
  refine Finset.sum_congr rfl fun k _ => ?_
  have hk := contrEquiv1_symm_val dot_S128x4096_S4096x688_S128x688_1_0_0_1_n_n 4096 rfl rfl k
  have el : dot_S128x4096_S4096x688_S128x688_1_0_0_1_n_n.lhsIdx (ix2 r f)
      ((contrEquiv1 dot_S128x4096_S4096x688_S128x688_1_0_0_1_n_n 4096 rfl rfl).symm k) = ix2 r k :=
    funext fun x => Fin.ext (by
      match x with
      | ⟨0, _⟩ => exact lhs_up_0 _ _
      | ⟨1, _⟩ => exact (lhs_up_1 _ _).trans hk)
  have er : dot_S128x4096_S4096x688_S128x688_1_0_0_1_n_n.rhsIdx (ix2 r f)
      ((contrEquiv1 dot_S128x4096_S4096x688_S128x688_1_0_0_1_n_n 4096 rfl rfl).symm k) = ix2 k f :=
    funext fun x => Fin.ext (by
      match x with
      | ⟨0, _⟩ => exact (rhs_up_0 _ _).trans hk
      | ⟨1, _⟩ => exact rhs_up_1 _ _)
  rw [el, er]

/-- The hidden activations times a [688, 4096] weight matrix into the zero accumulator, at (r, d): the sum over the
    hidden axis. -/
theorem dn_apply (a : FVec Ideal S128x688 .bf16) (b : FVec Ideal S688x4096 .bf16) (r : Fin 128) (d : Fin 4096) :
    matmul dot_S128x688_S688x4096_S128x4096_1_0_0_1_n_n none a b (constant (F := Ideal) S128x4096 .f32 0x00000000#32) (ix2 r d)
      = ∑ f : Fin 688, a (ix2 r f) * b (ix2 f d) := by
  show FloatOps.matmul _ _ _ _ _ _ = _
  rw [Ideal.matmul_constant_zero_apply,
    ← Equiv.sum_comp (contrEquiv1 dot_S128x688_S688x4096_S128x4096_1_0_0_1_n_n 688 rfl rfl).symm]
  refine Finset.sum_congr rfl fun k _ => ?_
  have hk := contrEquiv1_symm_val dot_S128x688_S688x4096_S128x4096_1_0_0_1_n_n 688 rfl rfl k
  have el : dot_S128x688_S688x4096_S128x4096_1_0_0_1_n_n.lhsIdx (ix2 r d)
      ((contrEquiv1 dot_S128x688_S688x4096_S128x4096_1_0_0_1_n_n 688 rfl rfl).symm k) = ix2 r k :=
    funext fun x => Fin.ext (by
      match x with
      | ⟨0, _⟩ => exact lhs_dn_0 _ _
      | ⟨1, _⟩ => exact (lhs_dn_1 _ _).trans hk)
  have er : dot_S128x688_S688x4096_S128x4096_1_0_0_1_n_n.rhsIdx (ix2 r d)
      ((contrEquiv1 dot_S128x688_S688x4096_S128x4096_1_0_0_1_n_n 688 rfl rfl).symm k) = ix2 k d :=
    funext fun x => Fin.ext (by
      match x with
      | ⟨0, _⟩ => exact (rhs_dn_0 _ _).trans hk
      | ⟨1, _⟩ => exact rhs_dn_1 _ _)
  rw [el, er]

/-! ## The unit axis of a block -/

/-- A [1, a, b] block viewed [a, b] reads (0, p, q) at (p, q). -/
theorem drop_unit {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  rw [shapeCast_dropUnit_apply ![a, b] v h (ix2 p q)]
  congr 1
  funext x
  match x with
  | ⟨0, _⟩ => rfl
  | ⟨1, _⟩ => rfl
  | ⟨2, _⟩ => rfl

/-- An [a, b] value stored as a [1, a, b] block reads (p, q) at (0, p, q). -/
theorem add_unit {α : Type} {a b : Nat} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 (0 : Fin 1) p q) = v (ix2 p q) := by
  rw [shapeCast_addUnit_apply ![a, b] v h (ix3 (0 : Fin 1) p q)]
  congr 1
  funext x
  match x with
  | ⟨0, _⟩ => rfl
  | ⟨1, _⟩ => rfl

/-! ## The stored value at an index -/

/-- The gate or up projection of a row block: row r of the block against column f of one expert's weights. -/
def gate (x : Vec Ideal S1x128x4096 .bf16) (w : Vec Ideal S1x4096x688 .bf16) (r : Fin 128) (f : Fin 688) : EReal :=
  ∑ k : Fin 4096, x (ix3 (0 : Fin 1) r k) * w (ix3 (0 : Fin 1) k f)

/-- The two up-projections of the kernel, shape casts included, are `gate`. -/
theorem up_gate (x : FVec Ideal S1x128x4096 .bf16) (w : FVec Ideal S1x4096x688 .bf16) (r : Fin 128) (f : Fin 688) :
    matmul dot_S128x4096_S4096x688_S128x688_1_0_0_1_n_n none (shapeCast S128x4096 x shapeCasts_S1x128x4096_S128x4096)
        (shapeCast S4096x688 w shapeCasts_S1x4096x688_S4096x688) (constant (F := Ideal) S128x688 .f32 0x00000000#32) (ix2 r f)
      = gate x w r f := by
  rw [up_apply]
  unfold gate
  refine Finset.sum_congr rfl fun k _ => ?_
  rw [drop_unit, drop_unit]

/-- The logistic of a vector at an index. -/
theorem logistic_apply {s : Shape} {φ : FTy} (v : FVec Ideal s φ) (i : s.Idx) : logistic v i = Ideal.logistic (v i) := rfl

/-- What the body stores at row r, model coordinate d of its block: the down projection of
    gate · logistic gate · up. -/
theorem payload (x0 : Vec Ideal S1x128x4096 .bf16) (x1 x2 : Vec Ideal S1x4096x688 .bf16) (x3 : Vec Ideal S1x688x4096 .bf16)
    (r : Fin 128) (d : Fin 4096) :
    k0_pay1 x0 x1 x2 x3 (ix3 (0 : Fin 1) r d)
      = ∑ f : Fin 688, (gate x0 x1 r f * Ideal.logistic (gate x0 x1 r f) * gate x0 x2 r f) * x3 (ix3 (0 : Fin 1) f d) := by
  unfold k0_pay1
  rw [add_unit, truncf_apply, dn_apply]
  refine Finset.sum_congr rfl fun f _ => ?_
  rw [drop_unit, truncf_apply, mulf_apply, mulf_apply, logistic_apply, up_gate, up_gate]

end Cert.KernelIdeal.Arr

end
-- ==== Proof.KernelArray.lean ====
/-
  The experts' output array after the kernel's run, as one function of the arrays the region finds.
-/
import proofs.«102018_j57114475102484_1_alg».proof.Proof.Gen.KernelIdeal.Frame
import proofs.«102018_j57114475102484_1_alg».proof.Proof.MoeSpec
import proofs.«102018_j57114475102484_1_alg».proof.Proof.KernelPayload
import Idealize.ShloMosaic.Lib.Pipeline.Value
import Idealize.ShloMosaic.Lib.ValueIdx
import Idealize.ShloMosaic.PureOps.Ideal.Laws

noncomputable section

open scoped BigOperators

namespace Cert.KernelIdeal.Arr

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## Where each window's block sits at a grid point -/

/-- The zero offsets of a rank-3 block, as a constant function. -/
theorem zero_offsets : (![0, 0, 0] : Fin 3 → Nat) = fun _ => 0 := funext fun a => by fin_cases a <;> rfl

/-- The grid is 16 experts by 5 row tiles, point t = 5 · expert + tile. The buffer's and the output's blocks sit at
    (expert, tile, 0); each weight array's block at (expert, 0, 0). -/
theorem block_index : ∀ t : Fin cfg0.N,
    win0_0.index t (0 : Fin 3) = t.val / 5 ∧ win0_0.index t (1 : Fin 3) = t.val % 5 ∧ win0_0.index t (2 : Fin 3) = 0
    ∧ win0_1.index t (0 : Fin 3) = t.val / 5 ∧ win0_1.index t (1 : Fin 3) = 0 ∧ win0_1.index t (2 : Fin 3) = 0
    ∧ win0_2.index t (0 : Fin 3) = t.val / 5 ∧ win0_2.index t (1 : Fin 3) = 0 ∧ win0_2.index t (2 : Fin 3) = 0
    ∧ win0_3.index t (0 : Fin 3) = t.val / 5 ∧ win0_3.index t (1 : Fin 3) = 0 ∧ win0_3.index t (2 : Fin 3) = 0
    ∧ win0_4.index t (0 : Fin 3) = t.val / 5 ∧ win0_4.index t (1 : Fin 3) = t.val % 5 ∧ win0_4.index t (2 : Fin 3) = 0 :=
  (by decide +kernel : ∀ t : Fin grid0.N, _)

/-- The expert a grid point works on. -/
def expert (t : Fin cfg0.N) : Fin 16 :=
  ⟨t.val / 5, by have h : t.val < 80 := lt_of_lt_of_eq t.isLt N_0; omega⟩

/-- The buffer row that row r of the point's tile is: tiles are 128 rows. -/
def row (t : Fin cfg0.N) (r : Fin 128) : Fin 640 :=
  ⟨t.val % 5 * 128 + r.val, by have := r.isLt; omega⟩

/-- Row r, coordinate k of the buffer's block at point t, in the array. -/
theorem emb_buf (t : Fin cfg0.N) (r : Fin 128) (k : Fin 4096) :
    ((cfg0.win 0).blk t).view.emb (ix3 (0 : Fin 1) r k) = ix3 (expert t) (row t r) k := by
  obtain ⟨e0, e1, e2, -⟩ := block_index t
  funext a; apply Fin.ext
  match a with
  | ⟨0, _⟩ => show win0_0.index t (0 : Fin 3) * 1 + 1 * 0 = t.val / 5; omega
  | ⟨1, _⟩ => show win0_0.index t (1 : Fin 3) * 128 + 1 * r.val = t.val % 5 * 128 + r.val; omega
  | ⟨2, _⟩ => show win0_0.index t (2 : Fin 3) * 4096 + 1 * k.val = k.val; omega

/-- Coordinate k, hidden unit f of the gate weights' block at point t, in the array. -/
theorem emb_wg (t : Fin cfg0.N) (k : Fin 4096) (f : Fin 688) :
    ((cfg0.win 1).blk t).view.emb (ix3 (0 : Fin 1) k f) = ix3 (expert t) k f := by
  obtain ⟨-, -, -, e0, e1, e2, -⟩ := block_index t
  funext a; apply Fin.ext
  match a with
  | ⟨0, _⟩ => show win0_1.index t (0 : Fin 3) * 1 + 1 * 0 = t.val / 5; omega
  | ⟨1, _⟩ => show win0_1.index t (1 : Fin 3) * 4096 + 1 * k.val = k.val; omega
  | ⟨2, _⟩ => show win0_1.index t (2 : Fin 3) * 688 + 1 * f.val = f.val; omega

/-- The same of the up weights' block. -/
theorem emb_wu (t : Fin cfg0.N) (k : Fin 4096) (f : Fin 688) :
    ((cfg0.win 2).blk t).view.emb (ix3 (0 : Fin 1) k f) = ix3 (expert t) k f := by
  obtain ⟨-, -, -, -, -, -, e0, e1, e2, -⟩ := block_index t
  funext a; apply Fin.ext
  match a with
  | ⟨0, _⟩ => show win0_2.index t (0 : Fin 3) * 1 + 1 * 0 = t.val / 5; omega
  | ⟨1, _⟩ => show win0_2.index t (1 : Fin 3) * 4096 + 1 * k.val = k.val; omega
  | ⟨2, _⟩ => show win0_2.index t (2 : Fin 3) * 688 + 1 * f.val = f.val; omega

/-- Hidden unit f, coordinate d of the down weights' block at point t, in the array. -/
theorem emb_wd (t : Fin cfg0.N) (f : Fin 688) (d : Fin 4096) :
    ((cfg0.win 3).blk t).view.emb (ix3 (0 : Fin 1) f d) = ix3 (expert t) f d := by
  obtain ⟨-, -, -, -, -, -, -, -, -, e0, e1, e2, -⟩ := block_index t
  funext a; apply Fin.ext
  match a with
  | ⟨0, _⟩ => show win0_3.index t (0 : Fin 3) * 1 + 1 * 0 = t.val / 5; omega
  | ⟨1, _⟩ => show win0_3.index t (1 : Fin 3) * 688 + 1 * f.val = f.val; omega
  | ⟨2, _⟩ => show win0_3.index t (2 : Fin 3) * 4096 + 1 * d.val = d.val; omega

/-- Row r, coordinate d of the output's block at point t, in the array. -/
theorem emb_out (t : Fin cfg0.N) (r : Fin 128) (d : Fin 4096) :
    ((cfg0.win 4).blk t).view.emb (ix3 (0 : Fin 1) r d) = ix3 (expert t) (row t r) d := by
  obtain ⟨-, -, -, -, -, -, -, -, -, -, -, -, e0, e1, e2⟩ := block_index t
  funext a; apply Fin.ext
  match a with
  | ⟨0, _⟩ => show win0_4.index t (0 : Fin 3) * 1 + 1 * 0 = t.val / 5; omega
  | ⟨1, _⟩ => show win0_4.index t (1 : Fin 3) * 128 + 1 * r.val = t.val % 5 * 128 + r.val; omega
  | ⟨2, _⟩ => show win0_4.index t (2 : Fin 3) * 4096 + 1 * d.val = d.val; omega

/-! ## The input blocks, read off the arrays -/

/-- Row r, coordinate k of the buffer's block at point t is the buffer at the point's expert, the tile's row, k. -/
theorem read_buf (c : Dev nD) (t : Fin cfg0.N) (r : Fin 128) (k : Fin 4096) :
    iblk m c 0 t (ix3 (0 : Fin 1) r k) = V m c main_v28 (ix3 (expert t) (row t r) k) := by
  unfold iblk
  rw [View.read_apply, emb_buf]
  unfold V
  generalize V0 m c = X
  exact cast_eq _ _

/-- Each weight block at point t is the weight array at the point's expert. -/
theorem read_wg (c : Dev nD) (t : Fin cfg0.N) (k : Fin 4096) (f : Fin 688) :
    iblk m c 1 t (ix3 (0 : Fin 1) k f) = V m c main_v29 (ix3 (expert t) k f) := by
  unfold iblk
  rw [View.read_apply, emb_wg]
  unfold V
  generalize V0 m c = X
  exact cast_eq _ _

theorem read_wu (c : Dev nD) (t : Fin cfg0.N) (k : Fin 4096) (f : Fin 688) :
    iblk m c 2 t (ix3 (0 : Fin 1) k f) = V m c main_v30 (ix3 (expert t) k f) := by
  unfold iblk
  rw [View.read_apply, emb_wu]
  unfold V
  generalize V0 m c = X
  exact cast_eq _ _

theorem read_wd (c : Dev nD) (t : Fin cfg0.N) (f : Fin 688) (d : Fin 4096) :
    iblk m c 3 t (ix3 (0 : Fin 1) f d) = V m c main_v31 (ix3 (expert t) f d) := by
  unfold iblk
  rw [View.read_apply, emb_wd]
  unfold V
  generalize V0 m c = X
  exact cast_eq _ _

/-- A function on the output array, read through the output's block at point t. -/
theorem read_out (G : S16x640x4096.Idx → EReal) (t : Fin cfg0.N) (r : Fin 128) (d : Fin 4096) :
    ((cfg0.win 4).blk t).view.read (Elt Ideal) G (ix3 (0 : Fin 1) r d) = G (ix3 (expert t) (row t r) d) := by
  rw [View.read_apply, emb_out]
  exact cast_eq _ _

/-! ## What a grid point writes back -/

/-- The specification at an index given by its coordinates. -/
theorem ffn_at (A : Cert.Moe.Tok.Idx → EReal) (B C : Cert.Moe.Wup.Idx → EReal) (D : Cert.Moe.Wdn.Idx → EReal)
    (e : Fin 16) (ρ : Fin 640) (d : Fin 4096) :
    Cert.Moe.ffn A B C D (ix3 e ρ d) = ∑ f : Fin 688, Cert.Moe.hidden A B C e ρ f * D (ix3 e f d) := rfl

/-- A projection of the buffer's block against a weight block at point t is the specification's projection
    for the point's expert and the tile's row. -/
theorem gate_wg (c : Dev nD) (t : Fin cfg0.N) (r : Fin 128) (f : Fin 688) :
    gate (iblk m c 0 t) (iblk m c 1 t) r f
      = Cert.Moe.proj (V m c main_v28) (V m c main_v29) (expert t) (row t r) f := by
  unfold gate Cert.Moe.proj
  refine Finset.sum_congr rfl fun k _ => ?_
  rw [read_buf, read_wg]

/-- The same against the up weights. -/
theorem gate_wu (c : Dev nD) (t : Fin cfg0.N) (r : Fin 128) (f : Fin 688) :
    gate (iblk m c 0 t) (iblk m c 2 t) r f
      = Cert.Moe.proj (V m c main_v28) (V m c main_v30) (expert t) (row t r) f := by
  unfold gate Cert.Moe.proj
  refine Finset.sum_congr rfl fun k _ => ?_
  rw [read_buf, read_wu]

/-- What point t writes back is block t of the feed-forward block of the arrays the region finds. -/
theorem flushed_eq (c : Dev nD) (t : Fin cfg0.N) :
    (dats (F := Ideal) m 0 c).flushed 4 t
      = ((cfg0.win 4).blk t).view.read (Elt Ideal)
          (Cert.Moe.ffn (V m c main_v28) (V m c main_v29) (V m c main_v30) (V m c main_v31)) := by
  show (cfg0.win 4).cut (grid0.coords t) ((dats m 0 c).after 4 t) = _
  rw [after0_4]
  unfold out0_4
  rw [View.canon_unit_zero zero_offsets]
  simp only [View.ld_unit_zero (S := S1x128x4096) zero_offsets, View.ld_unit_zero (S := S1x4096x688) zero_offsets,
    View.ld_unit_zero (S := S1x688x4096) zero_offsets]
  funext j
  obtain ⟨z, r, d, rfl⟩ : ∃ (z : Fin 1) (r : Fin 128) (d : Fin 4096), j = ix3 z r d := ⟨j 0, j 1, j 2, eq_ix3 j⟩
  obtain rfl : z = 0 := Subsingleton.elim z 0
  rw [read_out, ffn_at]
  show k0_pay1 (iblk m c 0 t) (iblk m c 1 t) (iblk m c 2 t) (iblk m c 3 t) (ix3 (0 : Fin 1) r d) = _
  rw [payload]
  refine Finset.sum_congr rfl fun f _ => ?_
  rw [gate_wg, gate_wu, read_wd]
  rfl

/-! ## The blocks fill the array -/

/-- An index of the output array is in point t's block iff each coordinate is in the block's range on its axis. -/
theorem mem_blk (t : Fin cfg0.N) (i : S16x640x4096.Idx) :
    i ∈ ((cfg0.win 4).blk t).view.set
      ↔ ∀ a : Fin 3, win0_4.index t a * S1x128x4096.size a ≤ (i a).val
          ∧ (i a).val < win0_4.index t a * S1x128x4096.size a + S1x128x4096.size a := by
  show i ∈ ((View.whole main_v32).slice (win0_4.rect t)).set ↔ _
  rw [View.set_slice_whole, Rect.mem_set_unit]
  exact Iff.rfl

/-- Expert e's row ρ lies in the block of point 5 · e + ρ / 128. -/
theorem cover (i : S16x640x4096.Idx) :
    ∃ t : Fin cfg0.N, (cfg0.win 4).flush t = true ∧ i ∈ ((cfg0.win 4).blk t).view.set := by
  have h0 : (i 0).val < 16 := (i 0).isLt
  have h1 : (i 1).val < 640 := (i 1).isLt
  have h2 : (i 2).val < 4096 := (i 2).isLt
  obtain ⟨t, ht⟩ : ∃ t : Fin cfg0.N, t.val = (i 0).val * 5 + (i 1).val / 128 :=
    ⟨⟨(i 0).val * 5 + (i 1).val / 128, lt_of_lt_of_eq (by omega) N_0.symm⟩, rfl⟩
  obtain ⟨-, -, -, -, -, -, -, -, -, -, -, -, e0, e1, e2⟩ := block_index t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 4096 ≤ (i 2).val ∧ (i 2).val < win0_4.index t (2 : Fin 3) * 4096 + 4096
    omega

/-! ## The array after the run -/

/-- After the run the output window's array holds the feed-forward block of the dispatched buffer and the three
    weight arrays as the region finds them. -/
theorem final (c : Dev nD) :
    (dats (F := Ideal) m 0 c).arrAt 4 cfg0.N
      = Cert.Moe.ffn (V m c main_v28) (V m c main_v29) (V m c main_v30) (V m c main_v31) :=
  (dats (F := Ideal) m 0 c).arrAt_eq_of_cover 4
    (Cert.Moe.ffn (V m c main_v28) (V m c main_v29) (V m c main_v30) (V m c main_v31))
    (fun t _ => flushed_eq m c t) cover

end Cert.KernelIdeal.Arr

end
-- ==== Proof.RefFfn.lean ====
/-
  The reference's feed-forward stretch read back: two batched products over the model axis, the SwiGLU unit written out
  as x · (1 / (1 + exp (−x))), and the batched product over the hidden axis, are the specification's block.
-/
import proofs.«102018_j57114475102484_1_alg».proof.Proof.RefOpsList
import proofs.«102018_j57114475102484_1_alg».proof.Proof.MoeSpec
import Idealize.ShloMosaic.Lib.StableHlo.Run
import Idealize.ShloMosaic.Lib.ValueIdx
import Idealize.ShloMosaic.PureOps.Ideal.Laws

noncomputable section

namespace Cert.ReferenceIdeal.Ffn

open Cert.ReferenceIdeal Cert.ReferenceIdeal.Gen Cert.ReferenceIdeal.Run
open Idealize.ShloMosaic Idealize.ShloMosaic.TcCoe Idealize.SL.Sem Idealize.ShloMosaic.StableHlo Idealize.ShloMosaic.ValueIdx

open scoped BigOperators

/-! ### The gate / up product's operand indices, coordinate by coordinate -/

theorem up_lhs_0 (j : S16x640x688.Idx) (k : dot_S16x640x4096_S16x4096x688_S16x640x688_2_1_1_2_0_0.contr.Idx) :
    (dot_S16x640x4096_S16x4096x688_S16x640x688_2_1_1_2_0_0.lhsIdx j k 0 : ℕ) = j 0 := by
  simp [DotDims.lhsIdx, dot_S16x640x4096_S16x4096x688_S16x640x688_2_1_1_2_0_0]; rfl
theorem up_lhs_1 (j : S16x640x688.Idx) (k : dot_S16x640x4096_S16x4096x688_S16x640x688_2_1_1_2_0_0.contr.Idx) :
    (dot_S16x640x4096_S16x4096x688_S16x640x688_2_1_1_2_0_0.lhsIdx j k 1 : ℕ) = j 1 := by
  simp [DotDims.lhsIdx, dot_S16x640x4096_S16x4096x688_S16x640x688_2_1_1_2_0_0]; rfl
theorem up_lhs_2 (j : S16x640x688.Idx) (k : dot_S16x640x4096_S16x4096x688_S16x640x688_2_1_1_2_0_0.contr.Idx) :
    (dot_S16x640x4096_S16x4096x688_S16x640x688_2_1_1_2_0_0.lhsIdx j k 2 : ℕ) = k ⟨0, by decide⟩ := by
  simp [DotDims.lhsIdx, dot_S16x640x4096_S16x4096x688_S16x640x688_2_1_1_2_0_0]; rfl
theorem up_rhs_0 (j : S16x640x688.Idx) (k : dot_S16x640x4096_S16x4096x688_S16x640x688_2_1_1_2_0_0.contr.Idx) :
    (dot_S16x640x4096_S16x4096x688_S16x640x688_2_1_1_2_0_0.rhsIdx j k 0 : ℕ) = j 0 := by
  simp [DotDims.rhsIdx, dot_S16x640x4096_S16x4096x688_S16x640x688_2_1_1_2_0_0]; rfl
theorem up_rhs_1 (j : S16x640x688.Idx) (k : dot_S16x640x4096_S16x4096x688_S16x640x688_2_1_1_2_0_0.contr.Idx) :
    (dot_S16x640x4096_S16x4096x688_S16x640x688_2_1_1_2_0_0.rhsIdx j k 1 : ℕ) = k ⟨0, by decide⟩ := by
  simp [DotDims.rhsIdx, dot_S16x640x4096_S16x4096x688_S16x640x688_2_1_1_2_0_0]; rfl
theorem up_rhs_2 (j : S16x640x688.Idx) (k : dot_S16x640x4096_S16x4096x688_S16x640x688_2_1_1_2_0_0.contr.Idx) :
    (dot_S16x640x4096_S16x4096x688_S16x640x688_2_1_1_2_0_0.rhsIdx j k 2 : ℕ) = j 2 := by
  simp [DotDims.rhsIdx, dot_S16x640x4096_S16x4096x688_S16x640x688_2_1_1_2_0_0]; rfl

/-- The gate / up product at expert `e`, row `q`, hidden unit `f`: the sum over the model axis. -/
theorem up_apply (l : FVec Ideal S16x640x4096 .f32) (r : FVec Ideal S16x4096x688 .f32) (e : Fin 16) (q : Fin 640) (f : Fin 688) :
    Host.dotGeneral (F := Ideal) dot_S16x640x4096_S16x4096x688_S16x640x688_2_1_1_2_0_0 none l r (ix3 e q f)
      = ∑ k : Fin 4096, l (ix3 e q k) * r (ix3 e k f) := by
  simp only [Host.dotGeneral]
  rw [Ideal.dotGeneral_apply,
    ← Equiv.sum_comp (contrEquiv1 dot_S16x640x4096_S16x4096x688_S16x640x688_2_1_1_2_0_0 4096 rfl rfl).symm]
  refine Finset.sum_congr rfl fun k _ => ?_
  have hk := contrEquiv1_symm_val dot_S16x640x4096_S16x4096x688_S16x640x688_2_1_1_2_0_0 4096 rfl rfl k
  congr 2
  · funext a
    refine Fin.ext ?_
    match a with
    | ⟨0, _⟩ => exact up_lhs_0 _ _
    | ⟨1, _⟩ => exact up_lhs_1 _ _
    | ⟨2, _⟩ => exact (up_lhs_2 _ _).trans hk
  · funext a
    refine Fin.ext ?_
    match a with
    | ⟨0, _⟩ => exact up_rhs_0 _ _
    | ⟨1, _⟩ => exact (up_rhs_1 _ _).trans hk
    | ⟨2, _⟩ => exact up_rhs_2 _ _

/-! ### The down product's operand indices, coordinate by coordinate -/

theorem dn_lhs_0 (j : S16x640x4096.Idx) (k : dot_S16x640x688_S16x688x4096_S16x640x4096_2_1_1_2_0_0.contr.Idx) :
    (dot_S16x640x688_S16x688x4096_S16x640x4096_2_1_1_2_0_0.lhsIdx j k 0 : ℕ) = j 0 := by
  simp [DotDims.lhsIdx, dot_S16x640x688_S16x688x4096_S16x640x4096_2_1_1_2_0_0]; rfl
theorem dn_lhs_1 (j : S16x640x4096.Idx) (k : dot_S16x640x688_S16x688x4096_S16x640x4096_2_1_1_2_0_0.contr.Idx) :
    (dot_S16x640x688_S16x688x4096_S16x640x4096_2_1_1_2_0_0.lhsIdx j k 1 : ℕ) = j 1 := by
  simp [DotDims.lhsIdx, dot_S16x640x688_S16x688x4096_S16x640x4096_2_1_1_2_0_0]; rfl
theorem dn_lhs_2 (j : S16x640x4096.Idx) (k : dot_S16x640x688_S16x688x4096_S16x640x4096_2_1_1_2_0_0.contr.Idx) :
    (dot_S16x640x688_S16x688x4096_S16x640x4096_2_1_1_2_0_0.lhsIdx j k 2 : ℕ) = k ⟨0, by decide⟩ := by
  simp [DotDims.lhsIdx, dot_S16x640x688_S16x688x4096_S16x640x4096_2_1_1_2_0_0]; rfl
theorem dn_rhs_0 (j : S16x640x4096.Idx) (k : dot_S16x640x688_S16x688x4096_S16x640x4096_2_1_1_2_0_0.contr.Idx) :
    (dot_S16x640x688_S16x688x4096_S16x640x4096_2_1_1_2_0_0.rhsIdx j k 0 : ℕ) = j 0 := by
  simp [DotDims.rhsIdx, dot_S16x640x688_S16x688x4096_S16x640x4096_2_1_1_2_0_0]; rfl
theorem dn_rhs_1 (j : S16x640x4096.Idx) (k : dot_S16x640x688_S16x688x4096_S16x640x4096_2_1_1_2_0_0.contr.Idx) :
    (dot_S16x640x688_S16x688x4096_S16x640x4096_2_1_1_2_0_0.rhsIdx j k 1 : ℕ) = k ⟨0, by decide⟩ := by
  simp [DotDims.rhsIdx, dot_S16x640x688_S16x688x4096_S16x640x4096_2_1_1_2_0_0]; rfl
theorem dn_rhs_2 (j : S16x640x4096.Idx) (k : dot_S16x640x688_S16x688x4096_S16x640x4096_2_1_1_2_0_0.contr.Idx) :
    (dot_S16x640x688_S16x688x4096_S16x640x4096_2_1_1_2_0_0.rhsIdx j k 2 : ℕ) = j 2 := by
  simp [DotDims.rhsIdx, dot_S16x640x688_S16x688x4096_S16x640x4096_2_1_1_2_0_0]; rfl

/-- The down product at expert `e`, row `q`, model coordinate `d`: the sum over the hidden axis. -/
theorem dn_apply (l : FVec Ideal S16x640x688 .f32) (r : FVec Ideal S16x688x4096 .f32) (e : Fin 16) (q : Fin 640) (d : Fin 4096) :
    Host.dotGeneral (F := Ideal) dot_S16x640x688_S16x688x4096_S16x640x4096_2_1_1_2_0_0 none l r (ix3 e q d)
      = ∑ f : Fin 688, l (ix3 e q f) * r (ix3 e f d) := by
  simp only [Host.dotGeneral]
  rw [Ideal.dotGeneral_apply,
    ← Equiv.sum_comp (contrEquiv1 dot_S16x640x688_S16x688x4096_S16x640x4096_2_1_1_2_0_0 688 rfl rfl).symm]
  refine Finset.sum_congr rfl fun k _ => ?_
  have hk := contrEquiv1_symm_val dot_S16x640x688_S16x688x4096_S16x640x4096_2_1_1_2_0_0 688 rfl rfl k
  congr 2
  · funext a
    refine Fin.ext ?_
    match a with
    | ⟨0, _⟩ => exact dn_lhs_0 _ _
    | ⟨1, _⟩ => exact dn_lhs_1 _ _
    | ⟨2, _⟩ => exact (dn_lhs_2 _ _).trans hk
  · funext a
    refine Fin.ext ?_
    match a with
    | ⟨0, _⟩ => exact dn_rhs_0 _ _
    | ⟨1, _⟩ => exact (dn_rhs_1 _ _).trans hk
    | ⟨2, _⟩ => exact dn_rhs_2 _ _

/-- The SwiGLU unit as the reference spells it, at one element: `x · (1 / (1 + exp (−x)))` is `x · logistic x`. -/
theorem silu_elem (x : EReal) :
    x * FloatOps.hostDivf (F := Ideal) (φ := .f32) (Ideal.ofBits .f32 0x3F800000#32)
        (Ideal.ofBits .f32 0x3F800000#32 + FloatOps.hostUnary (F := Ideal) (φ := .f32) .exp (FloatOps.hostNegf (F := Ideal) (φ := .f32) x))
      = x * Ideal.logistic x := by
  have h1 : Ideal.ofBits .f32 0x3F800000#32 = 1 := IdealRules.sign_bit.ideal_onePat .f32
  rw [h1]
  rfl

/-- The feed-forward stretch's composed term over any four arrays is the specification's block. -/
theorem ffn_term (buf : FVec Ideal S16x640x4096 .f32) (wg wu : FVec Ideal S16x4096x688 .f32) (wd : FVec Ideal S16x688x4096 .f32) :
    Host.dotGeneral (F := Ideal) dot_S16x640x688_S16x688x4096_S16x640x4096_2_1_1_2_0_0 none
      (mulf
        (mulf (Host.dotGeneral (F := Ideal) dot_S16x640x4096_S16x4096x688_S16x640x688_2_1_1_2_0_0 none buf wg)
          (Host.divf (F := Ideal) (broadcastInDim S16x640x688 ![] bcast_S_S16x640x688 (constant (F := Ideal) S_ .f32 0x3F800000#32))
            (addf (broadcastInDim S16x640x688 ![] bcast_S_S16x640x688 (constant (F := Ideal) S_ .f32 0x3F800000#32))
              (Host.exp (F := Ideal) (Host.negf (F := Ideal) (Host.dotGeneral (F := Ideal) dot_S16x640x4096_S16x4096x688_S16x640x688_2_1_1_2_0_0 none buf wg))))))
        (Host.dotGeneral (F := Ideal) dot_S16x640x4096_S16x4096x688_S16x640x688_2_1_1_2_0_0 none buf wu))
      wd
      = Cert.Moe.ffn buf wg wu wd := by
  funext i
  obtain ⟨e, q, d, rfl⟩ : ∃ (e : Fin 16) (q : Fin 640) (d : Fin 4096), i = ix3 e q d := ⟨i 0, i 1, i 2, eq_ix3 i⟩
  rw [dn_apply]
  unfold Cert.Moe.ffn Cert.Moe.hidden Cert.Moe.proj
  refine Finset.sum_congr rfl fun f _ => ?_
  rw [mulf_apply, mulf_apply]
  refine Eq.trans (congrArg (fun t => t * Host.dotGeneral (F := Ideal) dot_S16x640x4096_S16x4096x688_S16x640x688_2_1_1_2_0_0 none buf wu (ix3 e q f) * wd (ix3 e f d))
    (silu_elem (Host.dotGeneral (F := Ideal) dot_S16x640x4096_S16x4096x688_S16x640x688_2_1_1_2_0_0 none buf wg (ix3 e q f)))) ?_
  rw [up_apply, up_apply]

/-- After the feed-forward stretch, from any contents, the experts' output buffer holds the specification's block of the
    dispatched buffer and the three weight arrays as the stretch found them. -/
theorem mid_out (W : Valuation τ sig (Elt Ideal)) :
    after (mid (F := Ideal)) W (Proc.devRef .tc main_v32)
      = Cert.Moe.ffn (W (Proc.devRef .tc main_v27)) (W (Proc.devRef .tc main_arg3)) (W (Proc.devRef .tc main_arg4))
          (W (Proc.devRef .tc main_arg5)) := by
  after_results_simp
  exact ffn_term _ _ _ _

end Cert.ReferenceIdeal.Ffn

end
-- ==== Proof.HostPrefix.lean ====
/-
  The host operations both programs run BEFORE the expert block — one-hot of the expert index, its running count along the
  token axis, the position of each token in its expert's buffer, the keep mask, the clamped position, the scatter of the
  tokens into the [17, 640, 4096] buffer and its first sixteen slabs — are the same operations in the same order; the
  kernel program narrows the tokens and the weights to the sixteen-bit format first, which over the extended reals is
  the identity. So from contents that agree on the tokens and the expert indices the two programs reach the same
  clamped positions, the same keep mask and the same dispatched buffer.
-/
import proofs.«102018_j57114475102484_1_alg».proof.Proof.Gen.KernelIdeal.Launch
import proofs.«102018_j57114475102484_1_alg».proof.Proof.RefOpsList
import proofs.«102018_j57114475102484_1_alg».proof.Proof.Vals
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

/-- The kernel program's host operations before the region, as one list. -/
abbrev preK : List (HloOp Cert.KernelIdeal.τ Cert.KernelIdeal.sig (Elt Ideal)) :=
  List.flatten [Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6]

attribute [local irreducible] Host.reduce Host.gather Host.scatter Host.reduceWindow in
set_option maxRecDepth 8192 in
set_option maxHeartbeats 2000000 in
/-- The clamped position of each token in its expert's buffer: the same integer chain of the expert indices. -/
theorem pre_pos (Vk : KV) (Vr : RV) (hidx : Vk (Proc.devRef .tc Cert.KernelIdeal.main_arg1) = Vr (Proc.devRef .tc Cert.ReferenceIdeal.main_arg1)) :
    after preK Vk (Proc.devRef .tc Cert.KernelIdeal.main_v11) = after (Cert.ReferenceIdeal.Run.pre (F := Ideal)) Vr (Proc.devRef .tc Cert.ReferenceIdeal.main_v11) := by
  simp only [preK, Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, List.flatten_cons, List.flatten_nil,
    List.append_nil, List.cons_append, List.nil_append]
  after_results_simp
  rw [hidx]
  rfl

attribute [local irreducible] Host.reduce Host.gather Host.scatter Host.reduceWindow in
set_option maxRecDepth 8192 in
set_option maxHeartbeats 2000000 in
/-- The keep mask (position below the capacity): the same chain. -/
theorem pre_keep (Vk : KV) (Vr : RV) (hidx : Vk (Proc.devRef .tc Cert.KernelIdeal.main_arg1) = Vr (Proc.devRef .tc Cert.ReferenceIdeal.main_arg1)) :
    after preK Vk (Proc.devRef .tc Cert.KernelIdeal.main_v8) = after (Cert.ReferenceIdeal.Run.pre (F := Ideal)) Vr (Proc.devRef .tc Cert.ReferenceIdeal.main_v8) := by
  simp only [preK, Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, List.flatten_cons, List.flatten_nil,
    List.append_nil, List.cons_append, List.nil_append]
  after_results_simp
  rw [hidx]
  rfl

attribute [local irreducible] Host.reduce Host.gather Host.scatter Host.reduceWindow in
set_option maxRecDepth 8192 in
set_option maxHeartbeats 2000000 in
/-- The dispatched buffer: the tokens scattered by (expert-or-overflow slab, clamped position) into zeros, the overflow
    slab dropped. The kernel program scatters the narrowed tokens into narrow zeros; both are what they were. -/
theorem pre_buf (Vk : KV) (Vr : RV) (hx : Vk (Proc.devRef .tc Cert.KernelIdeal.main_arg0) = Vr (Proc.devRef .tc Cert.ReferenceIdeal.main_arg0))
    (hidx : Vk (Proc.devRef .tc Cert.KernelIdeal.main_arg1) = Vr (Proc.devRef .tc Cert.ReferenceIdeal.main_arg1)) :
    after preK Vk (Proc.devRef .tc Cert.KernelIdeal.main_v28) = after (Cert.ReferenceIdeal.Run.pre (F := Ideal)) Vr (Proc.devRef .tc Cert.ReferenceIdeal.main_v27) := by
  simp only [preK, Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, List.flatten_cons, List.flatten_nil,
    List.append_nil, List.cons_append, List.nil_append]
  after_results_simp
  simp only [join2_eq]
  after_results_simp
  rw [hx, hidx, zero_narrow_eq_wide]
  rfl

set_option maxHeartbeats 1000000 in
/-- The narrowed gate weights are the gate weights. -/
theorem pre_wg (Vk : KV) : after preK Vk (Proc.devRef .tc Cert.KernelIdeal.main_v29) = Vk (Proc.devRef .tc Cert.KernelIdeal.main_arg3) := by
  simp only [preK, Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, List.flatten_cons, List.flatten_nil,
    List.append_nil, List.cons_append, List.nil_append]
  after_results_simp
  rfl
set_option maxHeartbeats 1000000 in
/-- The narrowed up weights are the up weights. -/
theorem pre_wu (Vk : KV) : after preK Vk (Proc.devRef .tc Cert.KernelIdeal.main_v30) = Vk (Proc.devRef .tc Cert.KernelIdeal.main_arg4) := by
  simp only [preK, Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, List.flatten_cons, List.flatten_nil,
    List.append_nil, List.cons_append, List.nil_append]
  after_results_simp
  rfl
set_option maxHeartbeats 1000000 in
/-- The narrowed down weights are the down weights. -/
theorem pre_wd (Vk : KV) : after preK Vk (Proc.devRef .tc Cert.KernelIdeal.main_v31) = Vk (Proc.devRef .tc Cert.KernelIdeal.main_arg5) := by
  simp only [preK, Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5, Cert.KernelIdeal.Gen.hostOps0_6, List.flatten_cons, List.flatten_nil,
    List.append_nil, List.cons_append, List.nil_append]
  after_results_simp
  rfl

end Cert.Bridge

end
-- ==== Proof.HostTail.lean ====
/-
  The host operations both programs run AFTER the expert block — wrap the expert index and the clamped position as
  Python indexing does, join them into (expert, position) pairs, gather each token's row of the experts' output, multiply
  by the keep mask and by the gate score — are the same operations in the same order; the kernel program widens the
  gathered rows from the sixteen-bit format first, the identity over the extended reals. So from contents that agree on
  the experts' output, the expert indices, the clamped positions, the keep mask and the scores, the results agree.
-/
import proofs.«102018_j57114475102484_1_alg».proof.Proof.Gen.KernelIdeal.Launch
import proofs.«102018_j57114475102484_1_alg».proof.Proof.RefOpsList
import proofs.«102018_j57114475102484_1_alg».proof.Proof.Vals
import Idealize.ShloMosaic.Lib.StableHlo.Run
import Idealize.ShloMosaic.PureOps.Ideal

noncomputable section

namespace Cert.Bridge

open Idealize.ShloMosaic Idealize.ShloMosaic.TcCoe Idealize.SL.Sem Idealize.ShloMosaic.StableHlo

attribute [local irreducible] Host.reduce Host.gather Host.scatter Host.reduceWindow in
set_option maxRecDepth 8192 in
set_option maxHeartbeats 2000000 in
theorem tail_eq (Wk : KV) (Wr : RV)
    (hout : Wk (Proc.devRef .tc Cert.KernelIdeal.main_v32) = Wr (Proc.devRef .tc Cert.ReferenceIdeal.main_v32))
    (hidx : Wk (Proc.devRef .tc Cert.KernelIdeal.main_arg1) = Wr (Proc.devRef .tc Cert.ReferenceIdeal.main_arg1))
    (hpos : Wk (Proc.devRef .tc Cert.KernelIdeal.main_v11) = Wr (Proc.devRef .tc Cert.ReferenceIdeal.main_v11))
    (hkeep : Wk (Proc.devRef .tc Cert.KernelIdeal.main_v8) = Wr (Proc.devRef .tc Cert.ReferenceIdeal.main_v8))
    (hsc : Wk (Proc.devRef .tc Cert.KernelIdeal.main_arg2) = Wr (Proc.devRef .tc Cert.ReferenceIdeal.main_arg2)) :
    after (Cert.KernelIdeal.Gen.hostOps1 (F := Ideal)) Wk (Proc.devRef .tc Cert.KernelIdeal.main_v54)
      = after (Cert.ReferenceIdeal.Run.post (F := Ideal)) Wr (Proc.devRef .tc Cert.ReferenceIdeal.main_v53) := by
  after_results_simp
  simp only [join2_eq]
  after_results_simp
  rw [hout, hidx, hpos, hkeep, hsc]
  rfl

end Cert.Bridge

end
-- ==== Proof.Bridge.lean ====
/-
  The two programs' results are one array. The kernel program's result is its host tail applied to the contents the
  region leaves: the experts' output array, which is the specification's block of the dispatched buffer and the weights
  (the kernel's value), beside the expert indices, clamped positions, keep mask and scores its host prefix computed. The
  reference's result is its own tail applied to what its prefix and feed-forward stretch leave, and that stretch's output
  is the same block of the same buffer. Prefixes and tails agree operation by operation, so the results agree.
-/
import proofs.«102018_j57114475102484_1_alg».proof.Proof.KernelArray
import proofs.«102018_j57114475102484_1_alg».proof.Proof.RefRun
import proofs.«102018_j57114475102484_1_alg».proof.Proof.RefFfn
import proofs.«102018_j57114475102484_1_alg».proof.Proof.RefKeeps
import proofs.«102018_j57114475102484_1_alg».proof.Proof.HostPrefix
import proofs.«102018_j57114475102484_1_alg».proof.Proof.HostTail
import Idealize.ShloMosaic.Lib.Pipeline.FrameSuffix

noncomputable section

namespace Cert.Bridge

open Idealize.ShloMosaic Idealize.ShloMosaic.TcCoe Idealize.SL.Sem Idealize.ShloMosaic.StableHlo

open Cert.KernelIdeal.Gen in
/-- From memories that agree on the six argument arrays, the kernel program's result — its tail over the region's exit
    contents — is the reference's fold at its result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Pipeline.afterTail₀ Cert.KernelIdeal.cfgs (dats m) 0 (V0 m) [hostOps1] c Cert.KernelIdeal.main_v54
      = after (Cert.ReferenceIdeal.Run.ops (F := Ideal)) (launchContents m' c) (Proc.devRef .tc Cert.ReferenceIdeal.main_v53) := by
  -- the two launch contents, and the contents each tail starts from
  let Vk : KV := fun b => m (c, b)
  let Vr : RV := launchContents m' c
  let Wk : KV := Pipeline.withArrays Cert.KernelIdeal.spec0 c (V0 m c) fun w => (dats m 0 c).arrAt w Cert.KernelIdeal.cfg0.N
  let Wr : RV := after (Cert.ReferenceIdeal.Run.mid (F := Ideal)) (after (Cert.ReferenceIdeal.Run.pre (F := Ideal)) Vr)
  have e0 : Vk (Proc.devRef .tc Cert.KernelIdeal.main_arg0) = Vr (Proc.devRef .tc Cert.ReferenceIdeal.main_arg0) := h0.symm
  have e1 : Vk (Proc.devRef .tc Cert.KernelIdeal.main_arg1) = Vr (Proc.devRef .tc Cert.ReferenceIdeal.main_arg1) := h1.symm
  have e2 : Vk (Proc.devRef .tc Cert.KernelIdeal.main_arg2) = Vr (Proc.devRef .tc Cert.ReferenceIdeal.main_arg2) := h2.symm
  have e3 : Vk (Proc.devRef .tc Cert.KernelIdeal.main_arg3) = Vr (Proc.devRef .tc Cert.ReferenceIdeal.main_arg3) := h3.symm
  have e4 : Vk (Proc.devRef .tc Cert.KernelIdeal.main_arg4) = Vr (Proc.devRef .tc Cert.ReferenceIdeal.main_arg4) := h4.symm
  have e5 : Vk (Proc.devRef .tc Cert.KernelIdeal.main_arg5) = Vr (Proc.devRef .tc Cert.ReferenceIdeal.main_arg5) := h5.symm
  -- what the kernel program's tail reads that the region did not write is what the prefix left
  have kidx : Wk (Proc.devRef .tc Cert.KernelIdeal.main_arg1) = Vk (Proc.devRef .tc Cert.KernelIdeal.main_arg1) :=
    (Pipeline.withArrays_of_ne _ c (V0 m c) _ Cert.KernelIdeal.main_arg1 (by exact (by decide : ∀ w, Pipeline.arrRef Cert.KernelIdeal.spec0 w ≠ Cert.KernelIdeal.main_arg1))).trans (V_main_arg1 m c)
  have ksc : Wk (Proc.devRef .tc Cert.KernelIdeal.main_arg2) = Vk (Proc.devRef .tc Cert.KernelIdeal.main_arg2) :=
    (Pipeline.withArrays_of_ne _ c (V0 m c) _ Cert.KernelIdeal.main_arg2 (by exact (by decide : ∀ w, Pipeline.arrRef Cert.KernelIdeal.spec0 w ≠ Cert.KernelIdeal.main_arg2))).trans (V_main_arg2 m c)
  have kpos : Wk (Proc.devRef .tc Cert.KernelIdeal.main_v11) = after preK Vk (Proc.devRef .tc Cert.KernelIdeal.main_v11) :=
    Pipeline.withArrays_of_ne _ c (V0 m c) _ Cert.KernelIdeal.main_v11 (by exact (by decide : ∀ w, Pipeline.arrRef Cert.KernelIdeal.spec0 w ≠ Cert.KernelIdeal.main_v11))
  have kkeep : Wk (Proc.devRef .tc Cert.KernelIdeal.main_v8) = after preK Vk (Proc.devRef .tc Cert.KernelIdeal.main_v8) :=
    Pipeline.withArrays_of_ne _ c (V0 m c) _ Cert.KernelIdeal.main_v8 (by exact (by decide : ∀ w, Pipeline.arrRef Cert.KernelIdeal.spec0 w ≠ Cert.KernelIdeal.main_v8))
  -- the experts' output: the kernel's array and the reference's stretch are the same block
  have kout : Wk (Proc.devRef .tc Cert.KernelIdeal.main_v32)
      = Cert.Moe.ffn (after preK Vk (Proc.devRef .tc Cert.KernelIdeal.main_v28)) (after preK Vk (Proc.devRef .tc Cert.KernelIdeal.main_v29)) (after preK Vk (Proc.devRef .tc Cert.KernelIdeal.main_v30))
          (after preK Vk (Proc.devRef .tc Cert.KernelIdeal.main_v31)) :=
    (Pipeline.withArrays_arr Cert.KernelIdeal.spec0 launch0.win.arr_inj c _ _ 4).trans (Cert.KernelIdeal.Arr.final m c)
  have rout : Wr (Proc.devRef .tc Cert.ReferenceIdeal.main_v32)
      = Cert.Moe.ffn (after (Cert.ReferenceIdeal.Run.pre (F := Ideal)) Vr (Proc.devRef .tc Cert.ReferenceIdeal.main_v27)) (after (Cert.ReferenceIdeal.Run.pre (F := Ideal)) Vr (Proc.devRef .tc Cert.ReferenceIdeal.main_arg3))
          (after (Cert.ReferenceIdeal.Run.pre (F := Ideal)) Vr (Proc.devRef .tc Cert.ReferenceIdeal.main_arg4)) (after (Cert.ReferenceIdeal.Run.pre (F := Ideal)) Vr (Proc.devRef .tc Cert.ReferenceIdeal.main_arg5)) :=
    Cert.ReferenceIdeal.Ffn.mid_out _
  have hout : Wk (Proc.devRef .tc Cert.KernelIdeal.main_v32) = Wr (Proc.devRef .tc Cert.ReferenceIdeal.main_v32) := by
    rw [kout, rout, pre_buf Vk Vr e0 e1, pre_wg, pre_wu, pre_wd, pre_keeps_arg3, pre_keeps_arg4, pre_keeps_arg5, e3, e4, e5]
  have hidx : Wk (Proc.devRef .tc Cert.KernelIdeal.main_arg1) = Wr (Proc.devRef .tc Cert.ReferenceIdeal.main_arg1) := by
    rw [kidx, e1]; exact ((mid_keeps_arg1 _).trans (pre_keeps_arg1 _)).symm
  have hsc : Wk (Proc.devRef .tc Cert.KernelIdeal.main_arg2) = Wr (Proc.devRef .tc Cert.ReferenceIdeal.main_arg2) := by
    rw [ksc, e2]; exact ((mid_keeps_arg2 _).trans (pre_keeps_arg2 _)).symm
  have hpos : Wk (Proc.devRef .tc Cert.KernelIdeal.main_v11) = Wr (Proc.devRef .tc Cert.ReferenceIdeal.main_v11) := by
    rw [kpos, pre_pos Vk Vr e1]; exact (mid_keeps_v11 _).symm
  have hkeep : Wk (Proc.devRef .tc Cert.KernelIdeal.main_v8) = Wr (Proc.devRef .tc Cert.ReferenceIdeal.main_v8) := by
    rw [kkeep, pre_keep Vk Vr e1]; exact (mid_keeps_v8 _).symm
  have hops : after (Cert.ReferenceIdeal.Run.ops (F := Ideal)) Vr (Proc.devRef .tc Cert.ReferenceIdeal.main_v53) = after (Cert.ReferenceIdeal.Run.post (F := Ideal)) Wr (Proc.devRef .tc Cert.ReferenceIdeal.main_v53) := by
    show after (Cert.ReferenceIdeal.Run.pre ++ (Cert.ReferenceIdeal.Run.mid ++ Cert.ReferenceIdeal.Run.post)) Vr _ = _
    rw [Cert.ReferenceIdeal.Run.after_append, Cert.ReferenceIdeal.Run.after_append]
  rw [hops]
  exact tail_eq Wk Wr hout hidx hpos hkeep hsc

end Cert.Bridge

end
-- ==== Proof.lean ====
/-
  A top-1 mixture-of-experts layer with capacity dropping: each token is routed to one of sixteen experts, takes the next
  free row of that expert's 640-row buffer (tokens past the capacity go to an overflow slab that is dropped), every expert
  applies its SwiGLU feed-forward block  down(silu(x·Wg) ⊙ (x·Wu))  to its buffer, and each token reads its row back, zeroed
  if it was dropped and scaled by its gate score.

  The kernel program computes the feed-forward block in one pipelined region, tiled by (expert, 128-row tile), on operands
  narrowed to the sixteen-bit format; the reference computes it with three batched products and the logistic function written
  out as 1 / (1 + exp (−x)). Over the extended reals a change of format is the identity, a product into a zero accumulator is
  the plain sum over the contracted axis, and the logistic function IS that quotient; the routing arithmetic before the block
  and the gather after it are the same integer and layout operations in both programs. So both programs' results are the same
  function of the six argument arrays, for every input — no finiteness is used.

  The three frames: the kernel programs' are the pipelined region's frame (each window's blocks lie inside its array, the
  body loads and stores whole blocks); the reference's is its straight-line run with the result dropped. The ideal pass
  rewrote nothing, so the idealization is the program's own text.
-/
import proofs.«102018_j57114475102484_1_alg».proof.Defs
import proofs.«102018_j57114475102484_1_alg».proof.Proof.Gen.Kernel
import proofs.«102018_j57114475102484_1_alg».proof.Proof.Gen.Kernel.Skeleton
import proofs.«102018_j57114475102484_1_alg».proof.Proof.Gen.Kernel.Launch
import proofs.«102018_j57114475102484_1_alg».proof.Proof.Gen.Kernel.Points
import proofs.«102018_j57114475102484_1_alg».proof.Proof.Gen.Kernel.Frame
import proofs.«102018_j57114475102484_1_alg».proof.Proof.Gen.KernelIdeal
import proofs.«102018_j57114475102484_1_alg».proof.Proof.Gen.KernelIdeal.Skeleton
import proofs.«102018_j57114475102484_1_alg».proof.Proof.Gen.KernelIdeal.Launch
import proofs.«102018_j57114475102484_1_alg».proof.Proof.Gen.KernelIdeal.Points
import proofs.«102018_j57114475102484_1_alg».proof.Proof.Gen.KernelIdeal.Frame
import proofs.«102018_j57114475102484_1_alg».proof.Proof.Gen.ReferenceIdeal
import proofs.«102018_j57114475102484_1_alg».proof.Proof.Gen.Pre_finite_inputs
import proofs.«102018_j57114475102484_1_alg».proof.Proof.RefRun
import proofs.«102018_j57114475102484_1_alg».proof.Proof.RefKeeps
import proofs.«102018_j57114475102484_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program terminates, faults nowhere and leaves its arguments: the pipelined region's frame. -/
theorem frame_kernel : Cert.frame_Kernel := fun m ρ _ => Cert.Kernel.Gen.frame m ρ

/-- The same of the idealized kernel program. -/
theorem frame_kernelIdeal : Cert.frame_KernelIdeal := fun m ρ _ => Cert.KernelIdeal.Gen.frame m ρ

/-- The reference is a straight line of host operations none of which writes an argument array. -/
theorem frame_reference : Cert.frame_ReferenceIdeal := fun m ρ _ =>
  (θ_run Cert.ReferenceIdeal.defs _ _).mono
    (fun _ h c => ⟨(h c Cert.ReferenceIdeal.main_arg0).trans (Cert.Bridge.ops_keeps_arg0 _),
      (h c Cert.ReferenceIdeal.main_arg1).trans (Cert.Bridge.ops_keeps_arg1 _),
      (h c Cert.ReferenceIdeal.main_arg2).trans (Cert.Bridge.ops_keeps_arg2 _),
      (h c Cert.ReferenceIdeal.main_arg3).trans (Cert.Bridge.ops_keeps_arg3 _),
      (h c Cert.ReferenceIdeal.main_arg4).trans (Cert.Bridge.ops_keeps_arg4 _),
      (h c Cert.ReferenceIdeal.main_arg5).trans (Cert.Bridge.ops_keeps_arg5 _)⟩)
    (Cert.ReferenceIdeal.Run.run (F := Ideal) m ρ)

/-- The ideal pass rewrote no operation. -/
theorem preserves : Cert.preserves_Kernel_KernelIdeal := trivial

/-- From memories agreeing on the six arguments both idealized programs end with the same result array: the kernel
    program's is its host tail over the region's exit contents, the reference's its fold, and the two are equal
    (`Cert.Bridge.result_eq`); neither writes an argument. -/
theorem algebraic : Cert.algebraic_KernelIdeal_ReferenceIdeal := by
  intro m ρ m' ρ' _ hagree
  refine ⟨fun c => after (Cert.ReferenceIdeal.Run.ops (F := Ideal)) (launchContents m' c) (Proc.devRef .tc Cert.ReferenceIdeal.main_v53), ?_, ?_⟩
  · refine (θ_run Cert.KernelIdeal.defs _ _).mono (fun _ h c => ⟨?_, ?_, ?_, ?_, ?_, ?_, ?_⟩) (Cert.KernelIdeal.Gen.run_main m ρ)
    · exact ((h c).2 Cert.KernelIdeal.main_v54 (Pipeline.mem_restRefs_of Cert.KernelIdeal.main_v54 (by decide) (by decide))).trans
        (Cert.Bridge.result_eq m m' c (hagree c).1 (hagree c).2.1 (hagree c).2.2.1 (hagree c).2.2.2.1 (hagree c).2.2.2.2.1 (hagree c).2.2.2.2.2)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
    · exact ((h c).2 Cert.KernelIdeal.main_arg4 (Pipeline.mem_restRefs_of Cert.KernelIdeal.main_arg4 (by decide) (by decide))).trans
        (Cert.KernelIdeal.Gen.W_main_arg4 m (Cert.KernelIdeal.Gen.dats m) c)
    · exact ((h c).2 Cert.KernelIdeal.main_arg5 (Pipeline.mem_restRefs_of Cert.KernelIdeal.main_arg5 (by decide) (by decide))).trans
        (Cert.KernelIdeal.Gen.W_main_arg5 m (Cert.KernelIdeal.Gen.dats m) c)
  · exact (θ_run Cert.ReferenceIdeal.defs _ _).mono
      (fun _ h c => ⟨h c Cert.ReferenceIdeal.main_v53,
        (h c Cert.ReferenceIdeal.main_arg0).trans (Cert.Bridge.ops_keeps_arg0 _),
        (h c Cert.ReferenceIdeal.main_arg1).trans (Cert.Bridge.ops_keeps_arg1 _),
        (h c Cert.ReferenceIdeal.main_arg2).trans (Cert.Bridge.ops_keeps_arg2 _),
        (h c Cert.ReferenceIdeal.main_arg3).trans (Cert.Bridge.ops_keeps_arg3 _),
        (h c Cert.ReferenceIdeal.main_arg4).trans (Cert.Bridge.ops_keeps_arg4 _),
        (h c Cert.ReferenceIdeal.main_arg5).trans (Cert.Bridge.ops_keeps_arg5 _)⟩)
      (Cert.ReferenceIdeal.Run.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
